-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4x2048x4096 .f32) (main_arg1 : FVec F S4096x4096 .f32) (main_arg2 : FVec F S4096 .f32) (main_arg3 : FVec F S4096x4096 .f32) (main_arg4 : FVec F S4096 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩
abbrev S8192x4096 : Shape := ⟨2, ![8192, 4096]⟩

abbrev nBuf : Space → Nat
  | .hbm => 13
  | .vmem => 18
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S1x4096, .f32⟩
  | .hbm, ⟨8, _⟩ => ⟨S4096x4096, .bf16⟩
  | .hbm, ⟨9, _⟩ => ⟨S8192x4096, .f32⟩
  | .hbm, ⟨10, _⟩ => ⟨S1x4096, .f32⟩
  | .hbm, ⟨11, _⟩ => ⟨S8192x4096, .f32⟩
  | .hbm, ⟨12, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S4x2048x4096_S8192x4096 : S4x2048x4096.ShapeCasts S8192x4096
  shapeCasts_S8192x4096_S4x2048x4096 : S8192x4096.ShapeCasts S4x2048x4096
  dot_S1024x1024_S1024x1024_S1024x1024_1_0_0_1_n_n_wf : DotDims.WF S1024x1024 S1024x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x4096.size a
  hwx0_1 : ∀ i : grid0.Coords, EltTy.bits .f32 = 32 ∨ (Rect.block (s := S1x4096) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .f32 = 32 ∨ (Rect.block (s := S8192x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v3) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S1x4096 : Shape := ⟨2, ![1, 4096]⟩
abbrev S1x1x4096 : Shape := ⟨3, ![1, 1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4x2048x4096, .f32⟩
  | .hbm, ⟨12, _⟩ => ⟨S1x1x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x4096_S4096x4096_S4096x4096_1_0_0_1_n_n_wf : DotDims.WF S4096x4096 S4096x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Kernel.Common.lean ====
/-
  Both pallas_calls walk a three-axis grid whose LAST axis is the reduction axis, of four steps: a grid point's
  position along it is the point's number modulo 4. At step 0 the body clears its accumulator before adding the
  step's partial product to it; at step 3 it also writes its output block from the accumulator; at steps 1 and 2 it
  only accumulates. This module states the two branch conditions of each body over the grid in that closed form,
  says where the output window is idle (every step but the last, where alone its block is written back), names the
  staging memrefs the pipeline hands the body, and splits what a region lends its body besides the windows into the
  accumulator's buffer and the rest.
-/
import proofs.«173463_j11252814316068_1_alg».proof.Proof.Gen.Kernel.Launch
import proofs.«173463_j11252814316068_1_alg».proof.Proof.Gen.Kernel.Skeleton
import proofs.«173463_j11252814316068_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Every access of both bodies starts at the origin of its buffer. -/
theorem origin2 : (![0, 0] : Fin S1024x1024.rank → Nat) = fun _ => 0 := by
  funext a; match a with | ⟨0, _⟩ => rfl | ⟨1, _⟩ => rfl
theorem origin2r : (![0, 0] : Fin S1x1024.rank → Nat) = fun _ => 0 := by
  funext a; match a with | ⟨0, _⟩ => rfl | ⟨1, _⟩ => rfl

/-! ## Call 0: grid 4 x 4 x 4 -/

/-- The body's first branch condition, from the grid coordinates: the reduction step is 0. -/
abbrev clears0 (i : grid0.Coords) : Prop :=
  (Scalar.cmpi .ne (Scalar.extui (Scalar.cmpi .eq (BitVec.ofNat 32 (i 2).val) 0#32)) 0#32) = 1#1
/-- It holds exactly at the points whose number is 0 modulo 4. -/
theorem clears0_iff : ∀ t : Fin cfg0.N, clears0 (grid0.coords t) ↔ t.val % 4 = 0 :=
  (by decide +kernel : ∀ t : Fin grid0.N, clears0 (grid0.coords t) ↔ t.val % 4 = 0)

/-- The body's second branch condition: the reduction step is the last, 3. -/
abbrev emits0 (i : grid0.Coords) : Prop := k0_cond2 i = 1#1
/-- It holds exactly at the points whose number is 3 modulo 4. -/
theorem emits0_iff : ∀ t : Fin cfg0.N, emits0 (grid0.coords t) ↔ t.val % 4 = 3 :=
  (by decide +kernel : ∀ t : Fin grid0.N, emits0 (grid0.coords t) ↔ t.val % 4 = 3)

/-- The three input windows are never idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last reduction step the output window is idle, and its block is not written back. -/
theorem idle0_3 : ∀ t : Fin cfg0.N, ¬emits0 (grid0.coords t) → cfg0.idle 3 (grid0.coords t) = true := by decide +kernel
theorem noFlush0_3 : ∀ t : Fin cfg0.N, ¬emits0 (grid0.coords t) → (cfg0.win 3).flush t = false := by decide +kernel
/-- At the last reduction step it is live. -/
theorem live0_3 : ∀ t : Fin cfg0.N, emits0 (grid0.coords t) → cfg0.idle 3 (grid0.coords t) = false := by decide +kernel

/-- Each window's current staging memref at point `t`, as the pipeline passes it to the body, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev acM0 : Memref sig .tc .vmem S1024x1024 .f32 := Memref.whole cc0_scratch0

/-- What this call lends its body besides the windows' buffers and the accumulator: every other scoped buffer of the
    core (the other call's staging buffers and accumulator), each at some contents, and the generator register at
    some state. The body touches none of it. -/
def others0 (c : Dev nD) : sProp 𝕄 :=
  iprop(Pipeline.scopedRestBut (Ix := Unit) (Name := ℕ) (U := UR sig nD τ) (Lvl := ℕ) (Val := Elt F) spec0 c [cc0_scratch0] ∗ ∃ r, prngReg c r)

/-- The class invariant lends the accumulator at some contents, beside `others0`; -/
theorem classInv0_open (c : Dev nD) :
    (Pipeline.ΦA spec0 c : sProp 𝕄) ⊢ iprop((∃ d, owns (c : Thread nD τ) acM0 fullShare d) ∗ others0 c) := by
  unfold Pipeline.ΦA others0
  rw [Pipeline.scopedRest_split_of_list spec0 c [cc0_scratch0] (by decide) (by decide), bigSepL_singleton,
    show ∀ (P Q : sProp 𝕄), BI.sep P Q = iprop(P ∗ Q) from fun _ _ => rfl]
  simp only [acM0, owns_whole]
  iintro ⟨⟨HS, HB⟩, Hg⟩
  isplitl [HS]; · iexact HS
  isplitl [HB]; · iexact HB
  iexact Hg

/-- and takes it back at any contents. -/
theorem classInv0_close (c : Dev nD) :
    iprop((∃ d, owns (c : Thread nD τ) acM0 fullShare d) ∗ others0 c) ⊢ (Pipeline.ΦA spec0 c : sProp 𝕄) := by
  unfold Pipeline.ΦA others0
  rw [Pipeline.scopedRest_split_of_list spec0 c [cc0_scratch0] (by decide) (by decide), bigSepL_singleton,
    show ∀ (P Q : sProp 𝕄), BI.sep P Q = iprop(P ∗ Q) from fun _ _ => rfl]
  simp only [acM0, owns_whole]
  iintro ⟨HS, HB, Hg⟩
  isplitl [HS HB]
  · isplitl [HS]; · iexact HS
    iexact HB
  iexact Hg

/-! ## Call 1: grid 8 x 4 x 4 -/

/-- The body's first branch condition, from the grid coordinates: the reduction step is 0. -/
abbrev clears1 (i : grid1.Coords) : Prop :=
  (Scalar.cmpi .ne (Scalar.extui (Scalar.cmpi .eq (BitVec.ofNat 32 (i 2).val) 0#32)) 0#32) = 1#1
/-- It holds exactly at the points whose number is 0 modulo 4. -/
theorem clears1_iff : ∀ t : Fin cfg1.N, clears1 (grid1.coords t) ↔ t.val % 4 = 0 :=
  (by decide +kernel : ∀ t : Fin grid1.N, clears1 (grid1.coords t) ↔ t.val % 4 = 0)

/-- The body's second branch condition: the reduction step is the last, 3. -/
abbrev emits1 (i : grid1.Coords) : Prop := k1_cond2 i = 1#1
/-- It holds exactly at the points whose number is 3 modulo 4. -/
theorem emits1_iff : ∀ t : Fin cfg1.N, emits1 (grid1.coords t) ↔ t.val % 4 = 3 :=
  (by decide +kernel : ∀ t : Fin grid1.N, emits1 (grid1.coords t) ↔ t.val % 4 = 3)

/-- The three input windows are never idle. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last reduction step the output window is idle, and its block is not written back. -/
theorem idle1_3 : ∀ t : Fin cfg1.N, ¬emits1 (grid1.coords t) → cfg1.idle 3 (grid1.coords t) = true := by decide +kernel
theorem noFlush1_3 : ∀ t : Fin cfg1.N, ¬emits1 (grid1.coords t) → (cfg1.win 3).flush t = false := by decide +kernel
/-- At the last reduction step it is live. -/
theorem live1_3 : ∀ t : Fin cfg1.N, emits1 (grid1.coords t) → cfg1.idle 3 (grid1.coords t) = false := by decide +kernel

/-- Each window's current staging memref at point `t`, as the pipeline passes it to the body, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev acM1 : Memref sig .tc .vmem S1024x1024 .f32 := Memref.whole cc1_scratch0

/-- What this call lends its body besides the windows' buffers and the accumulator: every other scoped buffer of the
    core (the other call's staging buffers and accumulator), each at some contents, and the generator register at
    some state. The body touches none of it. -/
def others1 (c : Dev nD) : sProp 𝕄 :=
  iprop(Pipeline.scopedRestBut (Ix := Unit) (Name := ℕ) (U := UR sig nD τ) (Lvl := ℕ) (Val := Elt F) spec1 c [cc1_scratch0] ∗ ∃ r, prngReg c r)

/-- The class invariant lends the accumulator at some contents, beside `others1`; -/
theorem classInv1_open (c : Dev nD) :
    (Pipeline.ΦA spec1 c : sProp 𝕄) ⊢ iprop((∃ d, owns (c : Thread nD τ) acM1 fullShare d) ∗ others1 c) := by
  unfold Pipeline.ΦA others1
  rw [Pipeline.scopedRest_split_of_list spec1 c [cc1_scratch0] (by decide) (by decide), bigSepL_singleton,
    show ∀ (P Q : sProp 𝕄), BI.sep P Q = iprop(P ∗ Q) from fun _ _ => rfl]
  simp only [acM1, owns_whole]
  iintro ⟨⟨HS, HB⟩, Hg⟩
  isplitl [HS]; · iexact HS
  isplitl [HB]; · iexact HB
  iexact Hg

/-- and takes it back at any contents. -/
theorem classInv1_close (c : Dev nD) :
    iprop((∃ d, owns (c : Thread nD τ) acM1 fullShare d) ∗ others1 c) ⊢ (Pipeline.ΦA spec1 c : sProp 𝕄) := by
  unfold Pipeline.ΦA others1
  rw [Pipeline.scopedRest_split_of_list spec1 c [cc1_scratch0] (by decide) (by decide), bigSepL_singleton,
    show ∀ (P Q : sProp 𝕄), BI.sep P Q = iprop(P ∗ Q) from fun _ _ => rfl]
  simp only [acM1, owns_whole]
  iintro ⟨HS, HB, Hg⟩
  isplitl [HS HB]
  · isplitl [HS]; · iexact HS
    iexact HB
  iexact Hg

end Cert.Kernel.Hand

end
-- ==== Proof.Kernel.Body0.lean ====
/-
  The body of the first call on whole staging buffers, one statement per reduction step kind. With the three input
  blocks at contents u (a 1024 x 1024 block of the left matrix), r (the matching 1 x 1024 piece of the scale row) and
  v (a 1024 x 1024 block of the right matrix), one step replaces the accumulator's contents a by
  `k0_pay2 u r v a` — a plus the product of (u scaled columnwise by r) with v. A clearing step first overwrites the
  accumulator with `k0_pay1` (all zero), so it leaves `k0_pay2 u r v k0_pay1` whatever the accumulator held; the last
  step also stores `k0_pay3` of the new accumulator (its narrowing to the output's element type) into the output
  block. The input blocks are handed back as found; away from the last step the output block is not touched.
-/
import proofs.«173463_j11252814316068_1_alg».proof.Proof.Gen.Kernel.Launch
import proofs.«173463_j11252814316068_1_alg».proof.Proof.Gen.Kernel.Skeleton
import proofs.«173463_j11252814316068_1_alg».proof.Proof.Gen.Kernel.Points
import proofs.«173463_j11252814316068_1_alg».proof.Proof.Kernel.Common
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- A clearing step (reduction step 0): the accumulator, at anything, ends at one step from zero. -/
theorem body0_clear (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole)
    (hc0 : clears0 i) (hc1 : ¬emits0 i)
    (x0 : Vec F S1024x1024 .f32) (x1 : Vec F S1x1024 .f32) (x2 : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg7 fullShare (k0_pay2 x0 x1 x2 k0_pay1)) -∗ K ⟨⟩))
      ⊢ wp frame (wpE (defs₀ (F := F)) Variants.none c none) E (cc0__w_kernel i arg3 harg3 arg4 harg4 arg5 harg5 arg6 harg6 arg7 harg7) K := by
  simp only [cc0__w_kernel_eq_skeleton]; unfold cc0__w_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_words
  rw [View.read_writes_eq_canon _ _ _ (fun y => ⟨_, List.mem_cons_self, View.mem_set_unit_zero origin2 Facts₀.inb_S1024x1024_S1024x1024_0_0 y⟩)]
  simp only [View.canon_unit_zero (S := S1024x1024) origin2, View.canon_cons_unit_zero (S := S1024x1024) origin2, View.readAt_eq_ld, Memref.IsWhole.read_unread,
    View.ld_unit_zero (S := S1024x1024) origin2, View.ld_unit_zero (S := S1x1024) origin2r, View.readCov_unit_zero (S := S1024x1024) _ origin2]

set_option maxHeartbeats 1000000 in
/-- A middle step (reduction steps 1 and 2): the accumulator goes from `s` to one step from `s`. -/
theorem body0_add (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole)
    (hc0 : ¬clears0 i) (hc1 : ¬emits0 i)
    (x0 : Vec F S1024x1024 .f32) (x1 : Vec F S1x1024 .f32) (x2 : Vec F S1024x1024 .f32) (s : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg7 fullShare s
        ∗ (iprop(owns (c : Thread nD τ) arg3 fullShare x0 ∗ owns (c : Thread nD τ) arg4 fullShare x1 ∗ owns (c : Thread nD τ) arg5 fullShare x2
            ∗ owns (c : Thread nD τ) arg7 fullShare (k0_pay2 x0 x1 x2 s)) -∗ K ⟨⟩))
      ⊢ wp frame (wpE (defs₀ (F := F)) Variants.none c none) E (cc0__w_kernel i arg3 harg3 arg4 harg4 arg5 harg5 arg6 harg6 arg7 harg7) K := by
  simp only [cc0__w_kernel_eq_skeleton]; unfold cc0__w_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_words
  rw [View.read_writes_eq_canon _ _ _ (fun y => ⟨_, List.mem_cons_self, View.mem_set_unit_zero origin2 Facts₀.inb_S1024x1024_S1024x1024_0_0 y⟩)]
  simp only [View.canon_unit_zero (S := S1024x1024) origin2, View.canon_cons_unit_zero (S := S1024x1024) origin2, View.readAt_eq_ld, Memref.IsWhole.read_unread,
    View.ld_unit_zero (S := S1024x1024) origin2, View.ld_unit_zero (S := S1x1024) origin2r, View.readCov_unit_zero (S := S1024x1024) _ origin2]

set_option maxHeartbeats 1000000 in
/-- The last step (reduction step 3): the accumulator goes from `s` to one step from `s`, and the output block,
    at anything, ends at the narrowing of that. -/
theorem body0_emit (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole)
    (hc0 : ¬clears0 i) (hc1 : emits0 i)
    (x0 : Vec F S1024x1024 .f32) (x1 : Vec F S1x1024 .f32) (x2 : Vec F S1024x1024 .f32) (s : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare s
        ∗ (iprop(owns (c : Thread nD τ) arg3 fullShare x0 ∗ owns (c : Thread nD τ) arg4 fullShare x1 ∗ owns (c : Thread nD τ) arg5 fullShare x2
            ∗ owns (c : Thread nD τ) arg6 fullShare (k0_pay3 (k0_pay2 x0 x1 x2 s)) ∗ owns (c : Thread nD τ) arg7 fullShare (k0_pay2 x0 x1 x2 s)) -∗ K ⟨⟩))
      ⊢ wp frame (wpE (defs₀ (F := F)) Variants.none c none) E (cc0__w_kernel i arg3 harg3 arg4 harg4 arg5 harg5 arg6 harg6 arg7 harg7) K := by
  simp only [cc0__w_kernel_eq_skeleton]; unfold cc0__w_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (fun y => ⟨_, List.mem_cons_self, View.mem_set_unit_zero origin2 Facts₀.inb_S1024x1024_S1024x1024_0_0 y⟩)]
    simp only [View.canon_unit_zero (S := S1024x1024) origin2, View.canon_cons_unit_zero (S := S1024x1024) origin2, View.readAt_eq_ld, Memref.IsWhole.read_unread,
      View.ld_unit_zero (S := S1024x1024) origin2, View.ld_unit_zero (S := S1x1024) origin2r, View.readCov_unit_zero (S := S1024x1024) _ origin2]
  iexists _; isplitr
  swap; · iexact HS
  ipureintro
  sl_unfold_words
  rw [View.read_writes_eq_canon _ _ _ (fun y => ⟨_, List.mem_cons_self, View.mem_set_unit_zero origin2 Facts₀.inb_S1024x1024_S1024x1024_0_0 y⟩)]
  simp only [View.canon_unit_zero (S := S1024x1024) origin2, View.canon_cons_unit_zero (S := S1024x1024) origin2, View.readAt_eq_ld, Memref.IsWhole.read_unread,
    View.ld_unit_zero (S := S1024x1024) origin2, View.ld_unit_zero (S := S1x1024) origin2r, View.readCov_unit_zero (S := S1024x1024) _ origin2]

end Cert.Kernel.Hand

end
-- ==== Proof.Kernel.Data0.lean ====
/-
  The first call (the weight matrix) as a pipeline over its 64 grid points: what its accumulator holds after each point,
  by recursion on the point; the invariant that carries the accumulator from one point to the next; the proof data (what
  every window's staging buffer holds after the body); and the body's obligation at every point, from the three
  statements about the body. Everything is stated at a parameter V, the core's buffer contents when the call is
  entered, and at any float instance.
-/
import proofs.«173463_j11252814316068_1_alg».proof.Proof.Gen.Kernel.Launch
import proofs.«173463_j11252814316068_1_alg».proof.Proof.Gen.Kernel.Skeleton
import proofs.«173463_j11252814316068_1_alg».proof.Proof.Gen.Kernel.Points
import proofs.«173463_j11252814316068_1_alg».proof.Proof.Kernel.Body0
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the call is entered: everything here is stated at this parameter
variable (V : (c : Dev nD) → (b : Ref sig .tc) → Buf (Elt F) ((c : Thread nD τ).loc b))

/-! ## The windows' blocks -/

/-- Window `w`'s block at point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of the left factor at point `t`, -/
abbrev lhs0 (c : Dev nD) (t : Fin cfg0.N) : Vec F S1024x1024 .f32 := blk0 V c 0 t
/-- the matching piece of the scale row, -/
abbrev row0 (c : Dev nD) (t : Fin cfg0.N) : Vec F S1x1024 .f32 := blk0 V c 1 t
/-- and the block of the right factor. -/
abbrev rhs0 (c : Dev nD) (t : Fin cfg0.N) : Vec F S1024x1024 .f32 := blk0 V c 2 t

/-! ## The accumulator, point by point -/

/-- What the accumulator holds after the body at point `n`: at a clearing point (`n` a multiple of 4) one step from
    zero, at any other point one step from what the point before left. -/
def acc0 (c : Dev nD) : (n : ℕ) → n < cfg0.N → Vec F S1024x1024 .f32
  | 0, hn => k0_pay2 (lhs0 V c ⟨0, hn⟩) (row0 V c ⟨0, hn⟩) (rhs0 V c ⟨0, hn⟩) k0_pay1
  | n + 1, hn =>
    if (n + 1) % 4 = 0 then k0_pay2 (lhs0 V c ⟨n + 1, hn⟩) (row0 V c ⟨n + 1, hn⟩) (rhs0 V c ⟨n + 1, hn⟩) k0_pay1
    else k0_pay2 (lhs0 V c ⟨n + 1, hn⟩) (row0 V c ⟨n + 1, hn⟩) (rhs0 V c ⟨n + 1, hn⟩) (acc0 c n (Nat.lt_of_succ_lt hn))

theorem acc0_clear (c : Dev nD) (t : Fin cfg0.N) (h0 : t.val % 4 = 0) :
    acc0 V c t.val t.isLt = k0_pay2 (lhs0 V c t) (row0 V c t) (rhs0 V c t) k0_pay1 := by
  obtain ⟨n, hn⟩ := t
  cases n with
  | zero => rfl
  | succ n => rw [acc0, if_pos h0]

theorem acc0_add (c : Dev nD) (t : Fin cfg0.N) (h0 : ¬t.val % 4 = 0) :
    acc0 V c t.val t.isLt
      = k0_pay2 (lhs0 V c t) (row0 V c t) (rhs0 V c t) (acc0 V c (t.val - 1) (Nat.lt_of_le_of_lt (Nat.sub_le _ _) t.isLt)) := by
  obtain ⟨n, hn⟩ := t
  cases n with
  | zero => exact absurd (Nat.zero_mod _) h0
  | succ n => rw [acc0, if_neg h0]; rfl

/-! ## The invariant and the proof data -/

/-- The call's invariant before point `n`: before the first point the class's (the accumulator at anything); afterwards
    the accumulator at what the point before left, beside the rest. -/
def Inv0 (c : Dev nD) : (n : ℕ) → n ≤ cfg0.N → sProp 𝕄
  | 0, _ => Pipeline.ΦA spec0 c
  | n + 1, hn => iprop(owns (c : Thread nD τ) acM0 fullShare (acc0 V c n hn) ∗ others0 c)

theorem Inv0_succ (c : Dev nD) (n : ℕ) (hn : n < cfg0.N) :
    Inv0 V c (n + 1) hn = iprop(owns (c : Thread nD τ) acM0 fullShare (acc0 V c n hn) ∗ others0 c) := rfl

theorem Inv0_pos (c : Dev nD) (n : ℕ) (h : n ≤ cfg0.N) (hz : n ≠ 0) :
    Inv0 V c n h = iprop(owns (c : Thread nD τ) acM0 fullShare (acc0 V c (n - 1) (by omega)) ∗ others0 c) := by
  cases n with
  | zero => exact absurd rfl hz
  | succ n => rfl

/-- Before any point the invariant lends the accumulator at SOME contents beside the rest. -/
theorem Inv0_any (c : Dev nD) (n : ℕ) (h : n ≤ cfg0.N) :
    Inv0 V c n h ⊢ iprop((∃ d, owns (c : Thread nD τ) acM0 fullShare d) ∗ others0 c) := by
  cases n with
  | zero => exact classInv0_open c
  | succ n =>
    rw [Inv0_succ]
    iintro ⟨HS, Ho⟩
    isplitl [HS]; · iexists _; iexact HS
    iexact Ho

/-- The proof data of this call on core `c`: the arrays as the call finds them; after the body at point `t` each input's
    buffer at its block and the output's at the narrowing of the accumulator's contents there (consulted only at the last reduction step, where
    the block is written back); the invariant above; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => k0_pay3 (acc0 V c t.val t.isLt)
  Φ t := Inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = k0_pay3 (acc0 V c t.val t.isLt) := by dsimp only [dat0]

theorem Inv0_castSucc (c : Dev nD) (t : Fin cfg0.N) :
    (dat0 V c).Φ t.castSucc = Inv0 V c t.val (Nat.le_of_lt t.isLt) := by
  dsimp only [dat0]; simp only [Fin.coe_castSucc]

/-- An input window's current staging buffer holds its block at every point, whether or not the pipeline fetched it
    there: where it did not, the block index has not moved since the last fetch and the body leaves inputs in place. -/
theorem found0_0 (c : Dev nD) (t : Fin cfg0.N) (d) : (dat0 V c).before 0 t d = blk0 V c 0 t :=
  ((dat0 V c).before_in_eq_fetched 0 rfl (fun _ => rfl) (fun _ _ _ => rfl)
      (fun t => by rw [after0_0]; unfold Dat.blockOf blk0; rw [A_eq0]; try rfl) t d).trans
    (by unfold Dat.fetched Dat.blockOf blk0; rw [A_eq0]; try rfl)
theorem found0_1 (c : Dev nD) (t : Fin cfg0.N) (d) : (dat0 V c).before 1 t d = blk0 V c 1 t :=
  ((dat0 V c).before_in_eq_fetched 1 rfl (fun _ => rfl) (fun _ _ _ => rfl)
      (fun t => by rw [after0_1]; unfold Dat.blockOf blk0; rw [A_eq0]; try rfl) t d).trans
    (by unfold Dat.fetched Dat.blockOf blk0; rw [A_eq0]; try rfl)
theorem found0_2 (c : Dev nD) (t : Fin cfg0.N) (d) : (dat0 V c).before 2 t d = blk0 V c 2 t :=
  ((dat0 V c).before_in_eq_fetched 2 rfl (fun _ => rfl) (fun _ _ _ => rfl)
      (fun t => by rw [after0_2]; unfold Dat.blockOf blk0; rw [A_eq0]; try rfl) t d).trans
    (by unfold Dat.fetched Dat.blockOf blk0; rw [A_eq0]; try rfl)

/-! ## The body obligation -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point. The inputs' buffers hold their blocks; the point's number modulo 4 says which kind of step
    it is; the invariant lends the accumulator (at what the point before left; at anything before a clearing step) and
    takes it back at this point's contents; away from the last step the output's buffer is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [found0_0, found0_1, found0_2]
  rw [show (dat0 V c).owesAt () t.succ = (dat0 V c).owesAt () t.castSucc from rfl]
  rw [show (dat0 V c).Φ t.succ = Inv0 V c (t.val + 1) t.isLt from rfl, Inv0_succ, Inv0_castSucc]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  by_cases h0 : t.val % 4 = 0
  · have hc0 : clears0 (grid0.coords t) := (clears0_iff t).mpr h0
    have hc1 : ¬emits0 (grid0.coords t) := fun h => by have := (emits0_iff t).mp h; omega
    rw [Dat.leavesExact_idle (dat0 V c) 3 t (idle0_3 t hc1) (noFlush0_3 t hc1), acc0_clear V c t h0]
    iintro ⟨HΦ, Ho, ⟨%d0, H0⟩, ⟨%d1, H1⟩, ⟨%d2, H2⟩, H3⟩
    ihave HΦ' := (Inv0_any V c t.val (Nat.le_of_lt t.isLt)) $$ HΦ
    icases HΦ' with ⟨HS, Hoth⟩
    iapply (body0_clear c (grid0.coords t) (ms0_0 t) (hs0_0 t) (ms0_1 t) (hs0_1 t) (ms0_2 t) (hs0_2 t) (ms0_3 t) (hs0_3 t) acM0 (Memref.isWhole_whole _) hc0 hc1 (lhs0 V c t) (row0 V c t) (rhs0 V c t) Set.univ _)
    isplitl [H0]; · iexact H0
    isplitl [H1]; · iexact H1
    isplitl [H2]; · iexact H2
    isplitl [HS]; · iexact HS
    iintro ⟨H0, H1, H2, HS⟩
    isplitl [HS Hoth]
    · isplitl [HS]; · iexact HS
      iexact Hoth
    isplitl [Ho]; · iexact Ho
    isplitl [H0]; · iexact H0
    isplitl [H1]; · iexact H1
    isplitl [H2]; · iexact H2
    iexact H3
  · by_cases h1 : t.val % 4 = 3
    · have hc0 : ¬clears0 (grid0.coords t) := fun h => h0 ((clears0_iff t).mp h)
      have hc1 : emits0 (grid0.coords t) := (emits0_iff t).mpr h1
      rw [show (dat0 V c).leavesExact 3 t = owns (c : Thread nD τ) (ms0_3 t) fullShare ((dat0 V c).after 3 t) from by
        unfold Dat.leavesExact; rw [live0_3 t hc1], after0_3, acc0_add V c t h0,
        Inv0_pos V c _ _ (fun hz => h0 (by rw [hz]))]
      iintro ⟨⟨HS, Hoth⟩, Ho, ⟨%d0, H0⟩, ⟨%d1, H1⟩, ⟨%d2, H2⟩, ⟨%d3, H3⟩⟩
      iapply (body0_emit c (grid0.coords t) (ms0_0 t) (hs0_0 t) (ms0_1 t) (hs0_1 t) (ms0_2 t) (hs0_2 t) (ms0_3 t) (hs0_3 t) acM0 (Memref.isWhole_whole _) hc0 hc1 (lhs0 V c t) (row0 V c t) (rhs0 V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth]
      · isplitl [HS]; · iexact HS
        iexact Hoth
      isplitl [Ho]; · iexact Ho
      isplitl [H0]; · iexact H0
      isplitl [H1]; · iexact H1
      isplitl [H2]; · iexact H2
      iexact H3
    · have hc0 : ¬clears0 (grid0.coords t) := fun h => h0 ((clears0_iff t).mp h)
      have hc1 : ¬emits0 (grid0.coords t) := fun h => h1 ((emits0_iff t).mp h)
      rw [Dat.leavesExact_idle (dat0 V c) 3 t (idle0_3 t hc1) (noFlush0_3 t hc1), acc0_add V c t h0,
        Inv0_pos V c _ _ (fun hz => h0 (by rw [hz]))]
      iintro ⟨⟨HS, Hoth⟩, Ho, ⟨%d0, H0⟩, ⟨%d1, H1⟩, ⟨%d2, H2⟩, H3⟩
      iapply (body0_add c (grid0.coords t) (ms0_0 t) (hs0_0 t) (ms0_1 t) (hs0_1 t) (ms0_2 t) (hs0_2 t) (ms0_3 t) (hs0_3 t) acM0 (Memref.isWhole_whole _) hc0 hc1 (lhs0 V c t) (row0 V c t) (rhs0 V c t) _ Set.univ _)
      isplitl [H0]; · iexact H0
      isplitl [H1]; · iexact H1
      isplitl [H2]; · iexact H2
      isplitl [HS]; · iexact HS
      iintro ⟨H0, H1, H2, HS⟩
      isplitl [HS Hoth]
      · isplitl [HS]; · iexact HS
        iexact Hoth
      isplitl [Ho]; · iexact Ho
      isplitl [H0]; · iexact H0
      isplitl [H1]; · iexact H1
      isplitl [H2]; · iexact H2
      iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What a region hands its body (the class invariant) is the invariant before the first point; -/
theorem inv0_in (c : Dev nD) : Pipeline.ΦA spec0 c ⊢ (dat0 V c).Φ 0 := by
  rw [show (dat0 V c).Φ 0 = Inv0 V c 0 (Nat.zero_le _) from rfl]
  exact Idealize.SL.BI.Entails.refl _

/-- and after the last point the invariant gives it back, the accumulator's contents forgotten. -/
theorem inv0_out (c : Dev nD) : (dat0 V c).Φ (Fin.last cfg0.N) ⊢ Pipeline.ΦA spec0 c := by
  rw [show (dat0 V c).Φ (Fin.last cfg0.N) = Inv0 V c (Fin.last cfg0.N).val (Nat.le_of_lt_succ (Fin.last cfg0.N).isLt) from rfl]
  exact (Inv0_any V c _ _).trans (classInv0_close c)

end Cert.Kernel.Hand

end
-- ==== Proof.Kernel.Body1.lean ====
/-
  The body of the second call on whole staging buffers, one statement per reduction step kind. With the activation
  block at contents x (1024 x 1024) and the weight block at contents w (1024 x 1024, rows of the weight matrix), one
  step replaces the accumulator's contents a by `k1_pay2 x w a` — a plus the product of x with the TRANSPOSE of w (both
  blocks are read along their second axis). A clearing step first overwrites the accumulator with `k1_pay1` (all
  zero); the last step also stores `k1_pay3` of the new accumulator and the bias piece b (1 x 1024) — the accumulator
  with b added to every row — into the output block. Input blocks are handed back as found; away from the last step
  neither the bias piece nor the output block is touched.
-/
import proofs.«173463_j11252814316068_1_alg».proof.Proof.Gen.Kernel.Launch
import proofs.«173463_j11252814316068_1_alg».proof.Proof.Gen.Kernel.Skeleton
import proofs.«173463_j11252814316068_1_alg».proof.Proof.Gen.Kernel.Points
import proofs.«173463_j11252814316068_1_alg».proof.Proof.Kernel.Common
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- A clearing step (reduction step 0): the accumulator, at anything, ends at one step from zero. -/
theorem body1_clear (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (hc0 : clears1 i) (hc1 : ¬emits1 i)
    (x0 : Vec F S1024x1024 .f32) (x1 : Vec F S1024x1024 .bf16)
    (E : Set ℕ) (K : PUnit → sProp 𝕄) :
    iprop(owns (c : Thread nD τ) arg3 fullShare x0 ∗ owns (c : Thread nD τ) arg4 fullShare x1
        ∗ (∃ d, owns (c : Thread nD τ) arg7 fullShare d)
        ∗ (iprop(owns (c : Thread nD τ) arg3 fullShare x0 ∗ owns (c : Thread nD τ) arg4 fullShare x1
            ∗ owns (c : Thread nD τ) arg7 fullShare (k1_pay2 x0 x1 k1_pay1)) -∗ K ⟨⟩))
      ⊢ wp frame (wpE (defs₀ (F := F)) Variants.none c none) E (cc1__y_kernel i arg3 harg3 arg4 harg4 arg5 harg5 arg6 harg6 arg7 harg7) K := by
  simp only [cc1__y_kernel_eq_skeleton]; unfold cc1__y_kernel_skel
  unfold owns
  iintro ⟨⟨%f0, %hf0, H0⟩, ⟨%f1, %hf1, H1⟩, ⟨%ds, %fs, -, HS⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS
  ipureintro
  sl_unfold_words
  rw [View.read_writes_eq_canon _ _ _ (fun y => ⟨_, List.mem_cons_self, View.mem_set_unit_zero origin2 Facts₀.inb_S1024x1024_S1024x1024_0_0 y⟩)]
  simp only [View.canon_unit_zero (S := S1024x1024) origin2, View.canon_cons_unit_zero (S := S1024x1024) origin2, View.readAt_eq_ld, Memref.IsWhole.read_unread,
    View.ld_unit_zero (S := S1024x1024) origin2, View.ld_unit_zero (S := S1x1024) origin2r, View.readCov_unit_zero (S := S1024x1024) _ origin2]

set_option maxHeartbeats 1000000 in
/-- A middle step (reduction steps 1 and 2): the accumulator goes from `s` to one step from `s`. -/
theorem body1_add (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (hc0 : ¬clears1 i) (hc1 : ¬emits1 i)
    (x0 : Vec F S1024x1024 .f32) (x1 : Vec F S1024x1024 .bf16) (s : Vec F S1024x1024 .f32)
    (E : Set ℕ) (K : PUnit → sProp 𝕄) :
    iprop(owns (c : Thread nD τ) arg3 fullShare x0 ∗ owns (c : Thread nD τ) arg4 fullShare x1
        ∗ owns (c : Thread nD τ) arg7 fullShare s
        ∗ (iprop(owns (c : Thread nD τ) arg3 fullShare x0 ∗ owns (c : Thread nD τ) arg4 fullShare x1
            ∗ owns (c : Thread nD τ) arg7 fullShare (k1_pay2 x0 x1 s)) -∗ K ⟨⟩))
      ⊢ wp frame (wpE (defs₀ (F := F)) Variants.none c none) E (cc1__y_kernel i arg3 harg3 arg4 harg4 arg5 harg5 arg6 harg6 arg7 harg7) K := by
  simp only [cc1__y_kernel_eq_skeleton]; unfold cc1__y_kernel_skel
  unfold owns
  iintro ⟨⟨%f0, %hf0, H0⟩, ⟨%f1, %hf1, H1⟩, ⟨%fs, %hfs, HS⟩, Hk⟩
  obtain rfl := harg3.eq_unread hf0; obtain rfl := harg4.eq_unread hf1; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS
  ipureintro
  sl_unfold_words
  rw [View.read_writes_eq_canon _ _ _ (fun y => ⟨_, List.mem_cons_self, View.mem_set_unit_zero origin2 Facts₀.inb_S1024x1024_S1024x1024_0_0 y⟩)]
  simp only [View.canon_unit_zero (S := S1024x1024) origin2, View.canon_cons_unit_zero (S := S1024x1024) origin2, View.readAt_eq_ld, Memref.IsWhole.read_unread,
    View.ld_unit_zero (S := S1024x1024) origin2, View.ld_unit_zero (S := S1x1024) origin2r, View.readCov_unit_zero (S := S1024x1024) _ origin2]

set_option maxHeartbeats 1000000 in
/-- The last step (reduction step 3): the accumulator goes from `s` to one step from `s`, and the output block,
    at anything, ends at that with the bias piece added to every row. -/
theorem body1_emit (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (hc0 : ¬clears1 i) (hc1 : emits1 i)
    (x0 : Vec F S1024x1024 .f32) (x1 : Vec F S1024x1024 .bf16) (x2 : Vec F S1x1024 .f32) (s : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare s
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 x0 x1 s) x2) ∗ owns (c : Thread nD τ) arg7 fullShare (k1_pay2 x0 x1 s)) -∗ K ⟨⟩))
      ⊢ wp frame (wpE (defs₀ (F := F)) Variants.none c none) E (cc1__y_kernel i arg3 harg3 arg4 harg4 arg5 harg5 arg6 harg6 arg7 harg7) K := by
  simp only [cc1__y_kernel_eq_skeleton]; unfold cc1__y_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (fun y => ⟨_, List.mem_cons_self, View.mem_set_unit_zero origin2 Facts₀.inb_S1024x1024_S1024x1024_0_0 y⟩)]
    simp only [View.canon_unit_zero (S := S1024x1024) origin2, View.canon_cons_unit_zero (S := S1024x1024) origin2, View.readAt_eq_ld, Memref.IsWhole.read_unread,
      View.ld_unit_zero (S := S1024x1024) origin2, View.ld_unit_zero (S := S1x1024) origin2r, View.readCov_unit_zero (S := S1024x1024) _ origin2]
  iexists _; isplitr
  swap; · iexact HS
  ipureintro
  sl_unfold_words
  rw [View.read_writes_eq_canon _ _ _ (fun y => ⟨_, List.mem_cons_self, View.mem_set_unit_zero origin2 Facts₀.inb_S1024x1024_S1024x1024_0_0 y⟩)]
  simp only [View.canon_unit_zero (S := S1024x1024) origin2, View.canon_cons_unit_zero (S := S1024x1024) origin2, View.readAt_eq_ld, Memref.IsWhole.read_unread,
    View.ld_unit_zero (S := S1024x1024) origin2, View.ld_unit_zero (S := S1x1024) origin2r, View.readCov_unit_zero (S := S1024x1024) _ origin2]

end Cert.Kernel.Hand

end
-- ==== Proof.Kernel.Data1.lean ====
/-
  The second call (the linear layer) as a pipeline over its 128 grid points: what its accumulator holds after each
  point, by recursion on the point; the invariant that carries the accumulator from one point to the next; the proof
  data; and the body's obligation at every point, from the three statements about the body. Everything is stated at a
  parameter V, the core's buffer contents when the call is entered (its weight operand is what the first call left),
  and at any float instance.
-/
import proofs.«173463_j11252814316068_1_alg».proof.Proof.Gen.Kernel.Launch
import proofs.«173463_j11252814316068_1_alg».proof.Proof.Gen.Kernel.Skeleton
import proofs.«173463_j11252814316068_1_alg».proof.Proof.Gen.Kernel.Points
import proofs.«173463_j11252814316068_1_alg».proof.Proof.Kernel.Body1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the call is entered: everything here is stated at this parameter
variable (V : (c : Dev nD) → (b : Ref sig .tc) → Buf (Elt F) ((c : Thread nD τ).loc b))

/-! ## The windows' blocks -/

/-- Window `w`'s block at point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of the flattened activations at point `t`, -/
abbrev act1 (c : Dev nD) (t : Fin cfg1.N) : Vec F S1024x1024 .f32 := blk1 V c 0 t
/-- the block of the weight matrix (rows of it), -/
abbrev wgt1 (c : Dev nD) (t : Fin cfg1.N) : Vec F S1024x1024 .bf16 := blk1 V c 1 t
/-- and the piece of the bias row. -/
abbrev bias1 (c : Dev nD) (t : Fin cfg1.N) : Vec F S1x1024 .f32 := blk1 V c 2 t

/-! ## The accumulator, point by point -/

/-- What the accumulator holds after the body at point `n`: at a clearing point (`n` a multiple of 4) one step from
    zero, at any other point one step from what the point before left. -/
def acc1 (c : Dev nD) : (n : ℕ) → n < cfg1.N → Vec F S1024x1024 .f32
  | 0, hn => k1_pay2 (act1 V c ⟨0, hn⟩) (wgt1 V c ⟨0, hn⟩) k1_pay1
  | n + 1, hn =>
    if (n + 1) % 4 = 0 then k1_pay2 (act1 V c ⟨n + 1, hn⟩) (wgt1 V c ⟨n + 1, hn⟩) k1_pay1
    else k1_pay2 (act1 V c ⟨n + 1, hn⟩) (wgt1 V c ⟨n + 1, hn⟩) (acc1 c n (Nat.lt_of_succ_lt hn))

theorem acc1_clear (c : Dev nD) (t : Fin cfg1.N) (h0 : t.val % 4 = 0) :
    acc1 V c t.val t.isLt = k1_pay2 (act1 V c t) (wgt1 V c t) k1_pay1 := by
  obtain ⟨n, hn⟩ := t
  cases n with
  | zero => rfl
  | succ n => rw [acc1, if_pos h0]

theorem acc1_add (c : Dev nD) (t : Fin cfg1.N) (h0 : ¬t.val % 4 = 0) :
    acc1 V c t.val t.isLt
      = k1_pay2 (act1 V c t) (wgt1 V c t) (acc1 V c (t.val - 1) (Nat.lt_of_le_of_lt (Nat.sub_le _ _) t.isLt)) := by
  obtain ⟨n, hn⟩ := t
  cases n with
  | zero => exact absurd (Nat.zero_mod _) h0
  | succ n => rw [acc1, if_neg h0]; rfl

/-! ## The invariant and the proof data -/

/-- The call's invariant before point `n`: before the first point the class's (the accumulator at anything); afterwards
    the accumulator at what the point before left, beside the rest. -/
def Inv1 (c : Dev nD) : (n : ℕ) → n ≤ cfg1.N → sProp 𝕄
  | 0, _ => Pipeline.ΦA spec1 c
  | n + 1, hn => iprop(owns (c : Thread nD τ) acM1 fullShare (acc1 V c n hn) ∗ others1 c)

theorem Inv1_succ (c : Dev nD) (n : ℕ) (hn : n < cfg1.N) :
    Inv1 V c (n + 1) hn = iprop(owns (c : Thread nD τ) acM1 fullShare (acc1 V c n hn) ∗ others1 c) := rfl

theorem Inv1_pos (c : Dev nD) (n : ℕ) (h : n ≤ cfg1.N) (hz : n ≠ 0) :
    Inv1 V c n h = iprop(owns (c : Thread nD τ) acM1 fullShare (acc1 V c (n - 1) (by omega)) ∗ others1 c) := by
  cases n with
  | zero => exact absurd rfl hz
  | succ n => rfl

/-- Before any point the invariant lends the accumulator at SOME contents beside the rest. -/
theorem Inv1_any (c : Dev nD) (n : ℕ) (h : n ≤ cfg1.N) :
    Inv1 V c n h ⊢ iprop((∃ d, owns (c : Thread nD τ) acM1 fullShare d) ∗ others1 c) := by
  cases n with
  | zero => exact classInv1_open c
  | succ n =>
    rw [Inv1_succ]
    iintro ⟨HS, Ho⟩
    isplitl [HS]; · iexists _; iexact HS
    iexact Ho

/-- The proof data of this call on core `c`: the arrays as the call finds them; after the body at point `t` each input's
    buffer at its block and the output's at the accumulator's contents there with the bias piece added to every row (consulted only at the last reduction step, where
    the block is written back); the invariant above; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => k1_pay3 (acc1 V c t.val t.isLt) (bias1 V c t)
  Φ t := Inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = k1_pay3 (acc1 V c t.val t.isLt) (bias1 V c t) := by dsimp only [dat1]

theorem Inv1_castSucc (c : Dev nD) (t : Fin cfg1.N) :
    (dat1 V c).Φ t.castSucc = Inv1 V c t.val (Nat.le_of_lt t.isLt) := by
  dsimp only [dat1]; simp only [Fin.coe_castSucc]

/-- An input window's current staging buffer holds its block at every point, whether or not the pipeline fetched it
    there: where it did not, the block index has not moved since the last fetch and the body leaves inputs in place. -/
theorem found1_0 (c : Dev nD) (t : Fin cfg1.N) (d) : (dat1 V c).before 0 t d = blk1 V c 0 t :=
  ((dat1 V c).before_in_eq_fetched 0 rfl (fun _ => rfl) (fun _ _ _ => rfl)
      (fun t => by rw [after1_0]; unfold Dat.blockOf blk1; rw [A_eq1]; try rfl) t d).trans
    (by unfold Dat.fetched Dat.blockOf blk1; rw [A_eq1]; try rfl)
theorem found1_1 (c : Dev nD) (t : Fin cfg1.N) (d) : (dat1 V c).before 1 t d = blk1 V c 1 t :=
  ((dat1 V c).before_in_eq_fetched 1 rfl (fun _ => rfl) (fun _ _ _ => rfl)
      (fun t => by rw [after1_1]; unfold Dat.blockOf blk1; rw [A_eq1]; try rfl) t d).trans
    (by unfold Dat.fetched Dat.blockOf blk1; rw [A_eq1]; try rfl)
theorem found1_2 (c : Dev nD) (t : Fin cfg1.N) (d) : (dat1 V c).before 2 t d = blk1 V c 2 t :=
  ((dat1 V c).before_in_eq_fetched 2 rfl (fun _ => rfl) (fun _ _ _ => rfl)
      (fun t => by rw [after1_2]; unfold Dat.blockOf blk1; rw [A_eq1]; try rfl) t d).trans
    (by unfold Dat.fetched Dat.blockOf blk1; rw [A_eq1]; try rfl)

/-! ## The body obligation -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The inputs' buffers hold their blocks; the point's number modulo 4 says which kind of step
    it is; the invariant lends the accumulator (at what the point before left; at anything before a clearing step) and
    takes it back at this point's contents; away from the last step the output's buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [found1_0, found1_1, found1_2]
  rw [show (dat1 V c).owesAt () t.succ = (dat1 V c).owesAt () t.castSucc from rfl]
  rw [show (dat1 V c).Φ t.succ = Inv1 V c (t.val + 1) t.isLt from rfl, Inv1_succ, Inv1_castSucc]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  by_cases h0 : t.val % 4 = 0
  · have hc0 : clears1 (grid1.coords t) := (clears1_iff t).mpr h0
    have hc1 : ¬emits1 (grid1.coords t) := fun h => by have := (emits1_iff t).mp h; omega
    rw [Dat.leavesExact_idle (dat1 V c) 3 t (idle1_3 t hc1) (noFlush1_3 t hc1), acc1_clear V c t h0]
    iintro ⟨HΦ, Ho, ⟨%d0, H0⟩, ⟨%d1, H1⟩, ⟨%d2, H2⟩, H3⟩
    ihave HΦ' := (Inv1_any V c t.val (Nat.le_of_lt t.isLt)) $$ HΦ
    icases HΦ' with ⟨HS, Hoth⟩
    iapply (body1_clear c (grid1.coords t) (ms1_0 t) (hs1_0 t) (ms1_1 t) (hs1_1 t) (ms1_2 t) (hs1_2 t) (ms1_3 t) (hs1_3 t) acM1 (Memref.isWhole_whole _) hc0 hc1 (act1 V c t) (wgt1 V c t) Set.univ _)
    isplitl [H0]; · iexact H0
    isplitl [H1]; · iexact H1
    isplitl [HS]; · iexact HS
    iintro ⟨H0, H1, HS⟩
    isplitl [HS Hoth]
    · isplitl [HS]; · iexact HS
      iexact Hoth
    isplitl [Ho]; · iexact Ho
    isplitl [H0]; · iexact H0
    isplitl [H1]; · iexact H1
    isplitl [H2]; · iexact H2
    iexact H3
  · by_cases h1 : t.val % 4 = 3
    · have hc0 : ¬clears1 (grid1.coords t) := fun h => h0 ((clears1_iff t).mp h)
      have hc1 : emits1 (grid1.coords t) := (emits1_iff t).mpr h1
      rw [show (dat1 V c).leavesExact 3 t = owns (c : Thread nD τ) (ms1_3 t) fullShare ((dat1 V c).after 3 t) from by
        unfold Dat.leavesExact; rw [live1_3 t hc1], after1_3, acc1_add V c t h0,
        Inv1_pos V c _ _ (fun hz => h0 (by rw [hz]))]
      iintro ⟨⟨HS, Hoth⟩, Ho, ⟨%d0, H0⟩, ⟨%d1, H1⟩, ⟨%d2, H2⟩, ⟨%d3, H3⟩⟩
      iapply (body1_emit c (grid1.coords t) (ms1_0 t) (hs1_0 t) (ms1_1 t) (hs1_1 t) (ms1_2 t) (hs1_2 t) (ms1_3 t) (hs1_3 t) acM1 (Memref.isWhole_whole _) hc0 hc1 (act1 V c t) (wgt1 V c t) (bias1 V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth]
      · isplitl [HS]; · iexact HS
        iexact Hoth
      isplitl [Ho]; · iexact Ho
      isplitl [H0]; · iexact H0
      isplitl [H1]; · iexact H1
      isplitl [H2]; · iexact H2
      iexact H3
    · have hc0 : ¬clears1 (grid1.coords t) := fun h => h0 ((clears1_iff t).mp h)
      have hc1 : ¬emits1 (grid1.coords t) := fun h => h1 ((emits1_iff t).mp h)
      rw [Dat.leavesExact_idle (dat1 V c) 3 t (idle1_3 t hc1) (noFlush1_3 t hc1), acc1_add V c t h0,
        Inv1_pos V c _ _ (fun hz => h0 (by rw [hz]))]
      iintro ⟨⟨HS, Hoth⟩, Ho, ⟨%d0, H0⟩, ⟨%d1, H1⟩, ⟨%d2, H2⟩, H3⟩
      iapply (body1_add c (grid1.coords t) (ms1_0 t) (hs1_0 t) (ms1_1 t) (hs1_1 t) (ms1_2 t) (hs1_2 t) (ms1_3 t) (hs1_3 t) acM1 (Memref.isWhole_whole _) hc0 hc1 (act1 V c t) (wgt1 V c t) _ Set.univ _)
      isplitl [H0]; · iexact H0
      isplitl [H1]; · iexact H1
      isplitl [HS]; · iexact HS
      iintro ⟨H0, H1, HS⟩
      isplitl [HS Hoth]
      · isplitl [HS]; · iexact HS
        iexact Hoth
      isplitl [Ho]; · iexact Ho
      isplitl [H0]; · iexact H0
      isplitl [H1]; · iexact H1
      isplitl [H2]; · iexact H2
      iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What a region hands its body (the class invariant) is the invariant before the first point; -/
theorem inv1_in (c : Dev nD) : Pipeline.ΦA spec1 c ⊢ (dat1 V c).Φ 0 := by
  rw [show (dat1 V c).Φ 0 = Inv1 V c 0 (Nat.zero_le _) from rfl]
  exact Idealize.SL.BI.Entails.refl _

/-- and after the last point the invariant gives it back, the accumulator's contents forgotten. -/
theorem inv1_out (c : Dev nD) : (dat1 V c).Φ (Fin.last cfg1.N) ⊢ Pipeline.ΦA spec1 c := by
  rw [show (dat1 V c).Φ (Fin.last cfg1.N) = Inv1 V c (Fin.last cfg1.N).val (Nat.le_of_lt_succ (Fin.last cfg1.N).isLt) from rfl]
  exact (Inv1_any V c _ _).trans (classInv1_close c)

end Cert.Kernel.Hand

end
-- ==== Proof.Kernel.Run.lean ====
/-
  The whole program as a run. @main is: two host lines (S + ε, made a 1 x 4096 row), the first call, two host lines
  (the activations flattened to 8192 x 4096, the bias made a row), the second call, one host line (the result given its
  three-axis shape back). The core's unscoped buffers are followed through these five items as a fold from the launch
  memory: a host stretch applies its operations, a call changes its output array to what its write-backs leave and
  nothing else. Each call is entered from the contents the fold has there, and the run ends with every unscoped buffer
  at the fold's last stage — from which both the arguments (never written) and the result are read.
-/
import proofs.«173463_j11252814316068_1_alg».proof.Proof.Gen.Kernel.Launch
import proofs.«173463_j11252814316068_1_alg».proof.Proof.Gen.Kernel.Skeleton
import proofs.«173463_j11252814316068_1_alg».proof.Proof.Gen.Kernel.Points
import proofs.«173463_j11252814316068_1_alg».proof.Proof.Kernel.Data0
import proofs.«173463_j11252814316068_1_alg».proof.Proof.Kernel.Data1
import proofs.«173463_j11252814316068_1_alg».proof.Proof.Gen.Kernel.Regions
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => m (c, b)
/-- After the first two host lines (the first call's entry). -/
abbrev B1 : Dev nD → Valuation τ sig (Elt F) := fun c => StableHlo.after hostOps0 (B0 m c)
/-- The same read at the TensorCore's references: what the first call's proof data take. -/
abbrev E1 : (c : Dev nD) → (b : Ref sig .tc) → Buf (Elt F) ((c : Thread nD τ).loc b) := fun c b => B1 m c b

/-- At call 0's exit: its arrays at what the pipeline leaves (an input as entered, the output's write-backs folded),
    every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- The same read at the TensorCore's references. -/
abbrev E2 : (c : Dev nD) → (b : Ref sig .tc) → Buf (Elt F) ((c : Thread nD τ).loc b) := fun c b => B2 m c b
theorem left0 (c : Dev nD) (w : Fin cfg0.W) : (dat0 (E1 m) c).arrAt w cfg0.N = E2 m c (Pipeline.arrRef spec0 w) :=
  (B2_arr m c w).symm
theorem kept0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After the next two host lines (the second call's entry). -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b

/-- At call 1's exit: its arrays at what the pipeline leaves (an input as entered, the output's write-backs folded),
    every other buffer as entered. -/
def B4 (c : Dev nD) : Valuation τ sig (Elt F) :=
  Pipeline.withArrays spec1 c (B3 m c) fun w => (dat1 (E3 m) c).arrAt w cfg1.N
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
/-- The same read at the TensorCore's references. -/
abbrev E4 : (c : Dev nD) → (b : Ref sig .tc) → Buf (Elt F) ((c : Thread nD τ).loc b) := fun c b => B4 m c b
theorem left1 (c : Dev nD) (w : Fin cfg1.W) : (dat1 (E3 m) c).arrAt w cfg1.N = E4 m c (Pipeline.arrRef spec1 w) :=
  (B4_arr m c w).symm
theorem kept1 (c : Dev nD) : ∀ b, b ∉ Finset.univ.image (Pipeline.arrRef spec1) → E4 m c b = E3 m c b :=
  fun b hb => B4_of_ne m c b fun w e => hb (Finset.mem_image.mpr ⟨w, Finset.mem_univ _, e⟩)

/-- After the last host line: the end of @main. -/
abbrev B5 : Dev nD → Valuation τ sig (Elt F) := fun c => StableHlo.after hostOps2 (B4 m c)

/-! ## No item writes an argument -/

theorem atEnd_main_arg0 (c : Dev nD) : B5 m c (Proc.devRef .tc main_arg0) = m ((c : Thread nD τ).loc main_arg0) :=
  calc B5 m c (Proc.devRef .tc main_arg0)
    _ = B4 m c (Proc.devRef .tc main_arg0) := StableHlo.after_of_writes_sub hostOps2 _ hostOps2_writes (by decide)
    _ = B3 m c (Proc.devRef .tc main_arg0) := B4_of_ne m c main_arg0 (by decide)
    _ = B2 m c (Proc.devRef .tc main_arg0) := StableHlo.after_of_writes_sub hostOps1 _ hostOps1_writes (by decide)
    _ = B1 m c (Proc.devRef .tc main_arg0) := B2_of_ne m c main_arg0 (by decide)
    _ = B0 m c (Proc.devRef .tc main_arg0) := StableHlo.after_of_writes_sub hostOps0 _ hostOps0_writes (by decide)
    _ = m ((c : Thread nD τ).loc main_arg0) := rfl

theorem atEnd_main_arg1 (c : Dev nD) : B5 m c (Proc.devRef .tc main_arg1) = m ((c : Thread nD τ).loc main_arg1) :=
  calc B5 m c (Proc.devRef .tc main_arg1)
    _ = B4 m c (Proc.devRef .tc main_arg1) := StableHlo.after_of_writes_sub hostOps2 _ hostOps2_writes (by decide)
    _ = B3 m c (Proc.devRef .tc main_arg1) := B4_of_ne m c main_arg1 (by decide)
    _ = B2 m c (Proc.devRef .tc main_arg1) := StableHlo.after_of_writes_sub hostOps1 _ hostOps1_writes (by decide)
    _ = B1 m c (Proc.devRef .tc main_arg1) := (B2_arr m c 0).trans (((dat0 (E1 m) c).arrAt_in 0 rfl _).trans (A_eq0 (E1 m) c 0))
    _ = B0 m c (Proc.devRef .tc main_arg1) := StableHlo.after_of_writes_sub hostOps0 _ hostOps0_writes (by decide)
    _ = m ((c : Thread nD τ).loc main_arg1) := rfl

theorem atEnd_main_arg2 (c : Dev nD) : B5 m c (Proc.devRef .tc main_arg2) = m ((c : Thread nD τ).loc main_arg2) :=
  calc B5 m c (Proc.devRef .tc main_arg2)
    _ = B4 m c (Proc.devRef .tc main_arg2) := StableHlo.after_of_writes_sub hostOps2 _ hostOps2_writes (by decide)
    _ = B3 m c (Proc.devRef .tc main_arg2) := B4_of_ne m c main_arg2 (by decide)
    _ = B2 m c (Proc.devRef .tc main_arg2) := StableHlo.after_of_writes_sub hostOps1 _ hostOps1_writes (by decide)
    _ = B1 m c (Proc.devRef .tc main_arg2) := B2_of_ne m c main_arg2 (by decide)
    _ = B0 m c (Proc.devRef .tc main_arg2) := StableHlo.after_of_writes_sub hostOps0 _ hostOps0_writes (by decide)
    _ = m ((c : Thread nD τ).loc main_arg2) := rfl

theorem atEnd_main_arg3 (c : Dev nD) : B5 m c (Proc.devRef .tc main_arg3) = m ((c : Thread nD τ).loc main_arg3) :=
  calc B5 m c (Proc.devRef .tc main_arg3)
    _ = B4 m c (Proc.devRef .tc main_arg3) := StableHlo.after_of_writes_sub hostOps2 _ hostOps2_writes (by decide)
    _ = B3 m c (Proc.devRef .tc main_arg3) := B4_of_ne m c main_arg3 (by decide)
    _ = B2 m c (Proc.devRef .tc main_arg3) := StableHlo.after_of_writes_sub hostOps1 _ hostOps1_writes (by decide)
    _ = B1 m c (Proc.devRef .tc main_arg3) := (B2_arr m c 2).trans (((dat0 (E1 m) c).arrAt_in 2 rfl _).trans (A_eq0 (E1 m) c 2))
    _ = B0 m c (Proc.devRef .tc main_arg3) := StableHlo.after_of_writes_sub hostOps0 _ hostOps0_writes (by decide)
    _ = m ((c : Thread nD τ).loc main_arg3) := rfl

theorem atEnd_main_arg4 (c : Dev nD) : B5 m c (Proc.devRef .tc main_arg4) = m ((c : Thread nD τ).loc main_arg4) :=
  calc B5 m c (Proc.devRef .tc main_arg4)
    _ = B4 m c (Proc.devRef .tc main_arg4) := StableHlo.after_of_writes_sub hostOps2 _ hostOps2_writes (by decide)
    _ = B3 m c (Proc.devRef .tc main_arg4) := B4_of_ne m c main_arg4 (by decide)
    _ = B2 m c (Proc.devRef .tc main_arg4) := StableHlo.after_of_writes_sub hostOps1 _ hostOps1_writes (by decide)
    _ = B1 m c (Proc.devRef .tc main_arg4) := B2_of_ne m c main_arg4 (by decide)
    _ = B0 m c (Proc.devRef .tc main_arg4) := StableHlo.after_of_writes_sub hostOps0 _ hostOps0_writes (by decide)
    _ = m ((c : Thread nD τ).loc main_arg4) := rfl

theorem atEnd_main_arg5 (c : Dev nD) : B5 m c (Proc.devRef .tc main_arg5) = m ((c : Thread nD τ).loc main_arg5) :=
  calc B5 m c (Proc.devRef .tc main_arg5)
    _ = B4 m c (Proc.devRef .tc main_arg5) := StableHlo.after_of_writes_sub hostOps2 _ hostOps2_writes (by decide)
    _ = B3 m c (Proc.devRef .tc main_arg5) := B4_of_ne m c main_arg5 (by decide)
    _ = B2 m c (Proc.devRef .tc main_arg5) := StableHlo.after_of_writes_sub hostOps1 _ hostOps1_writes (by decide)
    _ = B1 m c (Proc.devRef .tc main_arg5) := B2_of_ne m c main_arg5 (by decide)
    _ = B0 m c (Proc.devRef .tc main_arg5) := StableHlo.after_of_writes_sub hostOps0 _ hostOps0_writes (by decide)
    _ = m ((c : Thread nD τ).loc main_arg5) := rfl

/-! ## The proof data family and the thread state -/

/-- Every pipeline's proof data, each at its call's entry contents (a literal match, so that the pinned configuration at a
    numeral reduces to the printed one). -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last stage, the generator register somewhere. -/
abbrev Tend (c : Dev nD) : sProp 𝕄 := iprop(StableHlo.held (c : Thread nD τ) (Pipeline.ucRefs τ sig) (B5 m c) ∗ ∃ r, prngReg c r)

/-! ## The calls as segments -/

-- applying a library lemma stated over the pinned configuration unifies with the printed one only when unification
-- may unfold plain definitions in a metavariable's type
set_option backward.isDefEq.respectTransparency.types false in
/-- Call 0 over the thread state: entered from every unscoped buffer at `B1`, left at `B2`. Its arrays are split out
    of the unscoped buffers and put back at the contents the pipeline leaves; the generator register and the scoped
    rest go into the call's invariant (the class's, before the first point) and come back out of it (after the last,
    the accumulator forgotten); nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec0 c : sProp 𝕄) ⊢ (pdats m 0 c).Φ 0 from inv0_in (E1 m) c)
    unfold Pipeline.ΦA
    iintro ⟨Hp, -, Hr⟩
    isplitl [Hr]; · iexact Hr
    iexact Hp
  hout c := by
    rw [Pipeline.ownSems0_none]
    refine (show (pdats m 0 c).Φ (Fin.last _) ⊢ (Pipeline.ΦA spec0 c : sProp 𝕄) from inv0_out (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification
-- may unfold plain definitions in a metavariable's type
set_option backward.isDefEq.respectTransparency.types false in
/-- Call 1 over the thread state: entered from every unscoped buffer at `B3`, left at `B4`. Its arrays are split out
    of the unscoped buffers and put back at the contents the pipeline leaves; the generator register and the scoped
    rest go into the call's invariant (the class's, before the first point) and come back out of it (after the last,
    the accumulator forgotten); nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m 1 c).Φ 0 from inv1_in (E3 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from inv1_out (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five items in order. -/
abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)) ]
/-- @main IS the run of the segments. -/
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every final state holds each unscoped buffer of each core at the fold's last stage. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tend m)
    (hch := ⟨fun _ => .rfl, fun _ => .rfl, fun _ => .rfl, fun _ => .rfl, fun _ => .rfl, fun c => by
      show (iprop(StableHlo.held (c : Thread nD τ) (Pipeline.ucRefs τ sig) (B5 m c) ∗ R c) : sProp 𝕄) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (atEnd_main_arg0 m c),
     (h c _ (mem_uc main_arg1 (by decide))).trans (atEnd_main_arg1 m c),
     (h c _ (mem_uc main_arg2 (by decide))).trans (atEnd_main_arg2 m c),
     (h c _ (mem_uc main_arg3 (by decide))).trans (atEnd_main_arg3 m c),
     (h c _ (mem_uc main_arg4 (by decide))).trans (atEnd_main_arg4 m c),
     (h c _ (mem_uc main_arg5 (by decide))).trans (atEnd_main_arg5 m c)⟩) (run_all m ρ)

end Cert.Kernel.Hand

end
-- ==== Proof.KernelIdeal.Common.lean ====
/-
  Both pallas_calls walk a three-axis grid whose LAST axis is the reduction axis, of four steps: a grid point's
  position along it is the point's number modulo 4. At step 0 the body clears its accumulator before adding the
  step's partial product to it; at step 3 it also writes its output block from the accumulator; at steps 1 and 2 it
  only accumulates. This module states the two branch conditions of each body over the grid in that closed form,
  says where the output window is idle (every step but the last, where alone its block is written back), names the
  staging memrefs the pipeline hands the body, and splits what a region lends its body besides the windows into the
  accumulator's buffer and the rest.
-/
import proofs.«173463_j11252814316068_1_alg».proof.Proof.Gen.KernelIdeal.Launch
import proofs.«173463_j11252814316068_1_alg».proof.Proof.Gen.KernelIdeal.Skeleton
import proofs.«173463_j11252814316068_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Every access of both bodies starts at the origin of its buffer. -/
theorem origin2 : (![0, 0] : Fin S1024x1024.rank → Nat) = fun _ => 0 := by
  funext a; match a with | ⟨0, _⟩ => rfl | ⟨1, _⟩ => rfl
theorem origin2r : (![0, 0] : Fin S1x1024.rank → Nat) = fun _ => 0 := by
  funext a; match a with | ⟨0, _⟩ => rfl | ⟨1, _⟩ => rfl

/-! ## Call 0: grid 4 x 4 x 4 -/

/-- The body's first branch condition, from the grid coordinates: the reduction step is 0. -/
abbrev clears0 (i : grid0.Coords) : Prop :=
  (Scalar.cmpi .ne (Scalar.extui (Scalar.cmpi .eq (BitVec.ofNat 32 (i 2).val) 0#32)) 0#32) = 1#1
/-- It holds exactly at the points whose number is 0 modulo 4. -/
theorem clears0_iff : ∀ t : Fin cfg0.N, clears0 (grid0.coords t) ↔ t.val % 4 = 0 :=
  (by decide +kernel : ∀ t : Fin grid0.N, clears0 (grid0.coords t) ↔ t.val % 4 = 0)

/-- The body's second branch condition: the reduction step is the last, 3. -/
abbrev emits0 (i : grid0.Coords) : Prop := k0_cond2 i = 1#1
/-- It holds exactly at the points whose number is 3 modulo 4. -/
theorem emits0_iff : ∀ t : Fin cfg0.N, emits0 (grid0.coords t) ↔ t.val % 4 = 3 :=
  (by decide +kernel : ∀ t : Fin grid0.N, emits0 (grid0.coords t) ↔ t.val % 4 = 3)

/-- The three input windows are never idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last reduction step the output window is idle, and its block is not written back. -/
theorem idle0_3 : ∀ t : Fin cfg0.N, ¬emits0 (grid0.coords t) → cfg0.idle 3 (grid0.coords t) = true := by decide +kernel
theorem noFlush0_3 : ∀ t : Fin cfg0.N, ¬emits0 (grid0.coords t) → (cfg0.win 3).flush t = false := by decide +kernel
/-- At the last reduction step it is live. -/
theorem live0_3 : ∀ t : Fin cfg0.N, emits0 (grid0.coords t) → cfg0.idle 3 (grid0.coords t) = false := by decide +kernel

/-- Each window's current staging memref at point `t`, as the pipeline passes it to the body, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev acM0 : Memref sig .tc .vmem S1024x1024 .f32 := Memref.whole cc0_scratch0

/-- What this call lends its body besides the windows' buffers and the accumulator: every other scoped buffer of the
    core (the other call's staging buffers and accumulator), each at some contents, and the generator register at
    some state. The body touches none of it. -/
def others0 (c : Dev nD) : sProp 𝕄 :=
  iprop(Pipeline.scopedRestBut (Ix := Unit) (Name := ℕ) (U := UR sig nD τ) (Lvl := ℕ) (Val := Elt F) spec0 c [cc0_scratch0] ∗ ∃ r, prngReg c r)

/-- The class invariant lends the accumulator at some contents, beside `others0`; -/
theorem classInv0_open (c : Dev nD) :
    (Pipeline.ΦA spec0 c : sProp 𝕄) ⊢ iprop((∃ d, owns (c : Thread nD τ) acM0 fullShare d) ∗ others0 c) := by
  unfold Pipeline.ΦA others0
  rw [Pipeline.scopedRest_split_of_list spec0 c [cc0_scratch0] (by decide) (by decide), bigSepL_singleton,
    show ∀ (P Q : sProp 𝕄), BI.sep P Q = iprop(P ∗ Q) from fun _ _ => rfl]
  simp only [acM0, owns_whole]
  iintro ⟨⟨HS, HB⟩, Hg⟩
  isplitl [HS]; · iexact HS
  isplitl [HB]; · iexact HB
  iexact Hg

/-- and takes it back at any contents. -/
theorem classInv0_close (c : Dev nD) :
    iprop((∃ d, owns (c : Thread nD τ) acM0 fullShare d) ∗ others0 c) ⊢ (Pipeline.ΦA spec0 c : sProp 𝕄) := by
  unfold Pipeline.ΦA others0
  rw [Pipeline.scopedRest_split_of_list spec0 c [cc0_scratch0] (by decide) (by decide), bigSepL_singleton,
    show ∀ (P Q : sProp 𝕄), BI.sep P Q = iprop(P ∗ Q) from fun _ _ => rfl]
  simp only [acM0, owns_whole]
  iintro ⟨HS, HB, Hg⟩
  isplitl [HS HB]
  · isplitl [HS]; · iexact HS
    iexact HB
  iexact Hg

/-! ## Call 1: grid 8 x 4 x 4 -/

/-- The body's first branch condition, from the grid coordinates: the reduction step is 0. -/
abbrev clears1 (i : grid1.Coords) : Prop :=
  (Scalar.cmpi .ne (Scalar.extui (Scalar.cmpi .eq (BitVec.ofNat 32 (i 2).val) 0#32)) 0#32) = 1#1
/-- It holds exactly at the points whose number is 0 modulo 4. -/
theorem clears1_iff : ∀ t : Fin cfg1.N, clears1 (grid1.coords t) ↔ t.val % 4 = 0 :=
  (by decide +kernel : ∀ t : Fin grid1.N, clears1 (grid1.coords t) ↔ t.val % 4 = 0)

/-- The body's second branch condition: the reduction step is the last, 3. -/
abbrev emits1 (i : grid1.Coords) : Prop := k1_cond2 i = 1#1
/-- It holds exactly at the points whose number is 3 modulo 4. -/
theorem emits1_iff : ∀ t : Fin cfg1.N, emits1 (grid1.coords t) ↔ t.val % 4 = 3 :=
  (by decide +kernel : ∀ t : Fin grid1.N, emits1 (grid1.coords t) ↔ t.val % 4 = 3)

/-- The three input windows are never idle. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last reduction step the output window is idle, and its block is not written back. -/
theorem idle1_3 : ∀ t : Fin cfg1.N, ¬emits1 (grid1.coords t) → cfg1.idle 3 (grid1.coords t) = true := by decide +kernel
theorem noFlush1_3 : ∀ t : Fin cfg1.N, ¬emits1 (grid1.coords t) → (cfg1.win 3).flush t = false := by decide +kernel
/-- At the last reduction step it is live. -/
theorem live1_3 : ∀ t : Fin cfg1.N, emits1 (grid1.coords t) → cfg1.idle 3 (grid1.coords t) = false := by decide +kernel

/-- Each window's current staging memref at point `t`, as the pipeline passes it to the body, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev acM1 : Memref sig .tc .vmem S1024x1024 .f32 := Memref.whole cc1_scratch0

/-- What this call lends its body besides the windows' buffers and the accumulator: every other scoped buffer of the
    core (the other call's staging buffers and accumulator), each at some contents, and the generator register at
    some state. The body touches none of it. -/
def others1 (c : Dev nD) : sProp 𝕄 :=
  iprop(Pipeline.scopedRestBut (Ix := Unit) (Name := ℕ) (U := UR sig nD τ) (Lvl := ℕ) (Val := Elt F) spec1 c [cc1_scratch0] ∗ ∃ r, prngReg c r)

/-- The class invariant lends the accumulator at some contents, beside `others1`; -/
theorem classInv1_open (c : Dev nD) :
    (Pipeline.ΦA spec1 c : sProp 𝕄) ⊢ iprop((∃ d, owns (c : Thread nD τ) acM1 fullShare d) ∗ others1 c) := by
  unfold Pipeline.ΦA others1
  rw [Pipeline.scopedRest_split_of_list spec1 c [cc1_scratch0] (by decide) (by decide), bigSepL_singleton,
    show ∀ (P Q : sProp 𝕄), BI.sep P Q = iprop(P ∗ Q) from fun _ _ => rfl]
  simp only [acM1, owns_whole]
  iintro ⟨⟨HS, HB⟩, Hg⟩
  isplitl [HS]; · iexact HS
  isplitl [HB]; · iexact HB
  iexact Hg

/-- and takes it back at any contents. -/
theorem classInv1_close (c : Dev nD) :
    iprop((∃ d, owns (c : Thread nD τ) acM1 fullShare d) ∗ others1 c) ⊢ (Pipeline.ΦA spec1 c : sProp 𝕄) := by
  unfold Pipeline.ΦA others1
  rw [Pipeline.scopedRest_split_of_list spec1 c [cc1_scratch0] (by decide) (by decide), bigSepL_singleton,
    show ∀ (P Q : sProp 𝕄), BI.sep P Q = iprop(P ∗ Q) from fun _ _ => rfl]
  simp only [acM1, owns_whole]
  iintro ⟨HS, HB, Hg⟩
  isplitl [HS HB]
  · isplitl [HS]; · iexact HS
    iexact HB
  iexact Hg

end Cert.KernelIdeal.Hand

end
-- ==== Proof.KernelIdeal.Body0.lean ====
/-
  The body of the first call on whole staging buffers, one statement per reduction step kind. With the three input
  blocks at contents u (a 1024 x 1024 block of the left matrix), r (the matching 1 x 1024 piece of the scale row) and
  v (a 1024 x 1024 block of the right matrix), one step replaces the accumulator's contents a by
  `k0_pay2 u r v a` — a plus the product of (u scaled columnwise by r) with v. A clearing step first overwrites the
  accumulator with `k0_pay1` (all zero), so it leaves `k0_pay2 u r v k0_pay1` whatever the accumulator held; the last
  step also stores `k0_pay3` of the new accumulator (its narrowing to the output's element type) into the output
  block. The input blocks are handed back as found; away from the last step the output block is not touched.
-/
import proofs.«173463_j11252814316068_1_alg».proof.Proof.Gen.KernelIdeal.Launch
import proofs.«173463_j11252814316068_1_alg».proof.Proof.Gen.KernelIdeal.Skeleton
import proofs.«173463_j11252814316068_1_alg».proof.Proof.Gen.KernelIdeal.Points
import proofs.«173463_j11252814316068_1_alg».proof.Proof.KernelIdeal.Common
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- A clearing step (reduction step 0): the accumulator, at anything, ends at one step from zero. -/
theorem body0_clear (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole)
    (hc0 : clears0 i) (hc1 : ¬emits0 i)
    (x0 : Vec F S1024x1024 .f32) (x1 : Vec F S1x1024 .f32) (x2 : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg7 fullShare (k0_pay2 x0 x1 x2 k0_pay1)) -∗ K ⟨⟩))
      ⊢ wp frame (wpE (defs₀ (F := F)) Variants.none c none) E (cc0__w_kernel i arg3 harg3 arg4 harg4 arg5 harg5 arg6 harg6 arg7 harg7) K := by
  simp only [cc0__w_kernel_eq_skeleton]; unfold cc0__w_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_words
  rw [View.read_writes_eq_canon _ _ _ (fun y => ⟨_, List.mem_cons_self, View.mem_set_unit_zero origin2 Facts₀.inb_S1024x1024_S1024x1024_0_0 y⟩)]
  simp only [View.canon_unit_zero (S := S1024x1024) origin2, View.canon_cons_unit_zero (S := S1024x1024) origin2, View.readAt_eq_ld, Memref.IsWhole.read_unread,
    View.ld_unit_zero (S := S1024x1024) origin2, View.ld_unit_zero (S := S1x1024) origin2r, View.readCov_unit_zero (S := S1024x1024) _ origin2]

set_option maxHeartbeats 1000000 in
/-- A middle step (reduction steps 1 and 2): the accumulator goes from `s` to one step from `s`. -/
theorem body0_add (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole)
    (hc0 : ¬clears0 i) (hc1 : ¬emits0 i)
    (x0 : Vec F S1024x1024 .f32) (x1 : Vec F S1x1024 .f32) (x2 : Vec F S1024x1024 .f32) (s : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg7 fullShare s
        ∗ (iprop(owns (c : Thread nD τ) arg3 fullShare x0 ∗ owns (c : Thread nD τ) arg4 fullShare x1 ∗ owns (c : Thread nD τ) arg5 fullShare x2
            ∗ owns (c : Thread nD τ) arg7 fullShare (k0_pay2 x0 x1 x2 s)) -∗ K ⟨⟩))
      ⊢ wp frame (wpE (defs₀ (F := F)) Variants.none c none) E (cc0__w_kernel i arg3 harg3 arg4 harg4 arg5 harg5 arg6 harg6 arg7 harg7) K := by
  simp only [cc0__w_kernel_eq_skeleton]; unfold cc0__w_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_words
  rw [View.read_writes_eq_canon _ _ _ (fun y => ⟨_, List.mem_cons_self, View.mem_set_unit_zero origin2 Facts₀.inb_S1024x1024_S1024x1024_0_0 y⟩)]
  simp only [View.canon_unit_zero (S := S1024x1024) origin2, View.canon_cons_unit_zero (S := S1024x1024) origin2, View.readAt_eq_ld, Memref.IsWhole.read_unread,
    View.ld_unit_zero (S := S1024x1024) origin2, View.ld_unit_zero (S := S1x1024) origin2r, View.readCov_unit_zero (S := S1024x1024) _ origin2]

set_option maxHeartbeats 1000000 in
/-- The last step (reduction step 3): the accumulator goes from `s` to one step from `s`, and the output block,
    at anything, ends at the narrowing of that. -/
theorem body0_emit (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole)
    (hc0 : ¬clears0 i) (hc1 : emits0 i)
    (x0 : Vec F S1024x1024 .f32) (x1 : Vec F S1x1024 .f32) (x2 : Vec F S1024x1024 .f32) (s : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare s
        ∗ (iprop(owns (c : Thread nD τ) arg3 fullShare x0 ∗ owns (c : Thread nD τ) arg4 fullShare x1 ∗ owns (c : Thread nD τ) arg5 fullShare x2
            ∗ owns (c : Thread nD τ) arg6 fullShare (k0_pay3 (k0_pay2 x0 x1 x2 s)) ∗ owns (c : Thread nD τ) arg7 fullShare (k0_pay2 x0 x1 x2 s)) -∗ K ⟨⟩))
      ⊢ wp frame (wpE (defs₀ (F := F)) Variants.none c none) E (cc0__w_kernel i arg3 harg3 arg4 harg4 arg5 harg5 arg6 harg6 arg7 harg7) K := by
  simp only [cc0__w_kernel_eq_skeleton]; unfold cc0__w_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (fun y => ⟨_, List.mem_cons_self, View.mem_set_unit_zero origin2 Facts₀.inb_S1024x1024_S1024x1024_0_0 y⟩)]
    simp only [View.canon_unit_zero (S := S1024x1024) origin2, View.canon_cons_unit_zero (S := S1024x1024) origin2, View.readAt_eq_ld, Memref.IsWhole.read_unread,
      View.ld_unit_zero (S := S1024x1024) origin2, View.ld_unit_zero (S := S1x1024) origin2r, View.readCov_unit_zero (S := S1024x1024) _ origin2]
  iexists _; isplitr
  swap; · iexact HS
  ipureintro
  sl_unfold_words
  rw [View.read_writes_eq_canon _ _ _ (fun y => ⟨_, List.mem_cons_self, View.mem_set_unit_zero origin2 Facts₀.inb_S1024x1024_S1024x1024_0_0 y⟩)]
  simp only [View.canon_unit_zero (S := S1024x1024) origin2, View.canon_cons_unit_zero (S := S1024x1024) origin2, View.readAt_eq_ld, Memref.IsWhole.read_unread,
    View.ld_unit_zero (S := S1024x1024) origin2, View.ld_unit_zero (S := S1x1024) origin2r, View.readCov_unit_zero (S := S1024x1024) _ origin2]

end Cert.KernelIdeal.Hand

end
-- ==== Proof.KernelIdeal.Data0.lean ====
/-
  The first call (the weight matrix) as a pipeline over its 64 grid points: what its accumulator holds after each point,
  by recursion on the point; the invariant that carries the accumulator from one point to the next; the proof data (what
  every window's staging buffer holds after the body); and the body's obligation at every point, from the three
  statements about the body. Everything is stated at a parameter V, the core's buffer contents when the call is
  entered, and at any float instance.
-/
import proofs.«173463_j11252814316068_1_alg».proof.Proof.Gen.KernelIdeal.Launch
import proofs.«173463_j11252814316068_1_alg».proof.Proof.Gen.KernelIdeal.Skeleton
import proofs.«173463_j11252814316068_1_alg».proof.Proof.Gen.KernelIdeal.Points
import proofs.«173463_j11252814316068_1_alg».proof.Proof.KernelIdeal.Body0
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the call is entered: everything here is stated at this parameter
variable (V : (c : Dev nD) → (b : Ref sig .tc) → Buf (Elt F) ((c : Thread nD τ).loc b))

/-! ## The windows' blocks -/

/-- Window `w`'s block at point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of the left factor at point `t`, -/
abbrev lhs0 (c : Dev nD) (t : Fin cfg0.N) : Vec F S1024x1024 .f32 := blk0 V c 0 t
/-- the matching piece of the scale row, -/
abbrev row0 (c : Dev nD) (t : Fin cfg0.N) : Vec F S1x1024 .f32 := blk0 V c 1 t
/-- and the block of the right factor. -/
abbrev rhs0 (c : Dev nD) (t : Fin cfg0.N) : Vec F S1024x1024 .f32 := blk0 V c 2 t

/-! ## The accumulator, point by point -/

/-- What the accumulator holds after the body at point `n`: at a clearing point (`n` a multiple of 4) one step from
    zero, at any other point one step from what the point before left. -/
def acc0 (c : Dev nD) : (n : ℕ) → n < cfg0.N → Vec F S1024x1024 .f32
  | 0, hn => k0_pay2 (lhs0 V c ⟨0, hn⟩) (row0 V c ⟨0, hn⟩) (rhs0 V c ⟨0, hn⟩) k0_pay1
  | n + 1, hn =>
    if (n + 1) % 4 = 0 then k0_pay2 (lhs0 V c ⟨n + 1, hn⟩) (row0 V c ⟨n + 1, hn⟩) (rhs0 V c ⟨n + 1, hn⟩) k0_pay1
    else k0_pay2 (lhs0 V c ⟨n + 1, hn⟩) (row0 V c ⟨n + 1, hn⟩) (rhs0 V c ⟨n + 1, hn⟩) (acc0 c n (Nat.lt_of_succ_lt hn))

theorem acc0_clear (c : Dev nD) (t : Fin cfg0.N) (h0 : t.val % 4 = 0) :
    acc0 V c t.val t.isLt = k0_pay2 (lhs0 V c t) (row0 V c t) (rhs0 V c t) k0_pay1 := by
  obtain ⟨n, hn⟩ := t
  cases n with
  | zero => rfl
  | succ n => rw [acc0, if_pos h0]

theorem acc0_add (c : Dev nD) (t : Fin cfg0.N) (h0 : ¬t.val % 4 = 0) :
    acc0 V c t.val t.isLt
      = k0_pay2 (lhs0 V c t) (row0 V c t) (rhs0 V c t) (acc0 V c (t.val - 1) (Nat.lt_of_le_of_lt (Nat.sub_le _ _) t.isLt)) := by
  obtain ⟨n, hn⟩ := t
  cases n with
  | zero => exact absurd (Nat.zero_mod _) h0
  | succ n => rw [acc0, if_neg h0]; rfl

/-! ## The invariant and the proof data -/

/-- The call's invariant before point `n`: before the first point the class's (the accumulator at anything); afterwards
    the accumulator at what the point before left, beside the rest. -/
def Inv0 (c : Dev nD) : (n : ℕ) → n ≤ cfg0.N → sProp 𝕄
  | 0, _ => Pipeline.ΦA spec0 c
  | n + 1, hn => iprop(owns (c : Thread nD τ) acM0 fullShare (acc0 V c n hn) ∗ others0 c)

theorem Inv0_succ (c : Dev nD) (n : ℕ) (hn : n < cfg0.N) :
    Inv0 V c (n + 1) hn = iprop(owns (c : Thread nD τ) acM0 fullShare (acc0 V c n hn) ∗ others0 c) := rfl

theorem Inv0_pos (c : Dev nD) (n : ℕ) (h : n ≤ cfg0.N) (hz : n ≠ 0) :
    Inv0 V c n h = iprop(owns (c : Thread nD τ) acM0 fullShare (acc0 V c (n - 1) (by omega)) ∗ others0 c) := by
  cases n with
  | zero => exact absurd rfl hz
  | succ n => rfl

/-- Before any point the invariant lends the accumulator at SOME contents beside the rest. -/
theorem Inv0_any (c : Dev nD) (n : ℕ) (h : n ≤ cfg0.N) :
    Inv0 V c n h ⊢ iprop((∃ d, owns (c : Thread nD τ) acM0 fullShare d) ∗ others0 c) := by
  cases n with
  | zero => exact classInv0_open c
  | succ n =>
    rw [Inv0_succ]
    iintro ⟨HS, Ho⟩
    isplitl [HS]; · iexists _; iexact HS
    iexact Ho

/-- The proof data of this call on core `c`: the arrays as the call finds them; after the body at point `t` each input's
    buffer at its block and the output's at the narrowing of the accumulator's contents there (consulted only at the last reduction step, where
    the block is written back); the invariant above; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => k0_pay3 (acc0 V c t.val t.isLt)
  Φ t := Inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = k0_pay3 (acc0 V c t.val t.isLt) := by dsimp only [dat0]

theorem Inv0_castSucc (c : Dev nD) (t : Fin cfg0.N) :
    (dat0 V c).Φ t.castSucc = Inv0 V c t.val (Nat.le_of_lt t.isLt) := by
  dsimp only [dat0]; simp only [Fin.coe_castSucc]

/-- An input window's current staging buffer holds its block at every point, whether or not the pipeline fetched it
    there: where it did not, the block index has not moved since the last fetch and the body leaves inputs in place. -/
theorem found0_0 (c : Dev nD) (t : Fin cfg0.N) (d) : (dat0 V c).before 0 t d = blk0 V c 0 t :=
  ((dat0 V c).before_in_eq_fetched 0 rfl (fun _ => rfl) (fun _ _ _ => rfl)
      (fun t => by rw [after0_0]; unfold Dat.blockOf blk0; rw [A_eq0]; try rfl) t d).trans
    (by unfold Dat.fetched Dat.blockOf blk0; rw [A_eq0]; try rfl)
theorem found0_1 (c : Dev nD) (t : Fin cfg0.N) (d) : (dat0 V c).before 1 t d = blk0 V c 1 t :=
  ((dat0 V c).before_in_eq_fetched 1 rfl (fun _ => rfl) (fun _ _ _ => rfl)
      (fun t => by rw [after0_1]; unfold Dat.blockOf blk0; rw [A_eq0]; try rfl) t d).trans
    (by unfold Dat.fetched Dat.blockOf blk0; rw [A_eq0]; try rfl)
theorem found0_2 (c : Dev nD) (t : Fin cfg0.N) (d) : (dat0 V c).before 2 t d = blk0 V c 2 t :=
  ((dat0 V c).before_in_eq_fetched 2 rfl (fun _ => rfl) (fun _ _ _ => rfl)
      (fun t => by rw [after0_2]; unfold Dat.blockOf blk0; rw [A_eq0]; try rfl) t d).trans
    (by unfold Dat.fetched Dat.blockOf blk0; rw [A_eq0]; try rfl)

/-! ## The body obligation -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point. The inputs' buffers hold their blocks; the point's number modulo 4 says which kind of step
    it is; the invariant lends the accumulator (at what the point before left; at anything before a clearing step) and
    takes it back at this point's contents; away from the last step the output's buffer is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [found0_0, found0_1, found0_2]
  rw [show (dat0 V c).owesAt () t.succ = (dat0 V c).owesAt () t.castSucc from rfl]
  rw [show (dat0 V c).Φ t.succ = Inv0 V c (t.val + 1) t.isLt from rfl, Inv0_succ, Inv0_castSucc]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  by_cases h0 : t.val % 4 = 0
  · have hc0 : clears0 (grid0.coords t) := (clears0_iff t).mpr h0
    have hc1 : ¬emits0 (grid0.coords t) := fun h => by have := (emits0_iff t).mp h; omega
    rw [Dat.leavesExact_idle (dat0 V c) 3 t (idle0_3 t hc1) (noFlush0_3 t hc1), acc0_clear V c t h0]
    iintro ⟨HΦ, Ho, ⟨%d0, H0⟩, ⟨%d1, H1⟩, ⟨%d2, H2⟩, H3⟩
    ihave HΦ' := (Inv0_any V c t.val (Nat.le_of_lt t.isLt)) $$ HΦ
    icases HΦ' with ⟨HS, Hoth⟩
    iapply (body0_clear c (grid0.coords t) (ms0_0 t) (hs0_0 t) (ms0_1 t) (hs0_1 t) (ms0_2 t) (hs0_2 t) (ms0_3 t) (hs0_3 t) acM0 (Memref.isWhole_whole _) hc0 hc1 (lhs0 V c t) (row0 V c t) (rhs0 V c t) Set.univ _)
    isplitl [H0]; · iexact H0
    isplitl [H1]; · iexact H1
    isplitl [H2]; · iexact H2
    isplitl [HS]; · iexact HS
    iintro ⟨H0, H1, H2, HS⟩
    isplitl [HS Hoth]
    · isplitl [HS]; · iexact HS
      iexact Hoth
    isplitl [Ho]; · iexact Ho
    isplitl [H0]; · iexact H0
    isplitl [H1]; · iexact H1
    isplitl [H2]; · iexact H2
    iexact H3
  · by_cases h1 : t.val % 4 = 3
    · have hc0 : ¬clears0 (grid0.coords t) := fun h => h0 ((clears0_iff t).mp h)
      have hc1 : emits0 (grid0.coords t) := (emits0_iff t).mpr h1
      rw [show (dat0 V c).leavesExact 3 t = owns (c : Thread nD τ) (ms0_3 t) fullShare ((dat0 V c).after 3 t) from by
        unfold Dat.leavesExact; rw [live0_3 t hc1], after0_3, acc0_add V c t h0,
        Inv0_pos V c _ _ (fun hz => h0 (by rw [hz]))]
      iintro ⟨⟨HS, Hoth⟩, Ho, ⟨%d0, H0⟩, ⟨%d1, H1⟩, ⟨%d2, H2⟩, ⟨%d3, H3⟩⟩
      iapply (body0_emit c (grid0.coords t) (ms0_0 t) (hs0_0 t) (ms0_1 t) (hs0_1 t) (ms0_2 t) (hs0_2 t) (ms0_3 t) (hs0_3 t) acM0 (Memref.isWhole_whole _) hc0 hc1 (lhs0 V c t) (row0 V c t) (rhs0 V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth]
      · isplitl [HS]; · iexact HS
        iexact Hoth
      isplitl [Ho]; · iexact Ho
      isplitl [H0]; · iexact H0
      isplitl [H1]; · iexact H1
      isplitl [H2]; · iexact H2
      iexact H3
    · have hc0 : ¬clears0 (grid0.coords t) := fun h => h0 ((clears0_iff t).mp h)
      have hc1 : ¬emits0 (grid0.coords t) := fun h => h1 ((emits0_iff t).mp h)
      rw [Dat.leavesExact_idle (dat0 V c) 3 t (idle0_3 t hc1) (noFlush0_3 t hc1), acc0_add V c t h0,
        Inv0_pos V c _ _ (fun hz => h0 (by rw [hz]))]
      iintro ⟨⟨HS, Hoth⟩, Ho, ⟨%d0, H0⟩, ⟨%d1, H1⟩, ⟨%d2, H2⟩, H3⟩
      iapply (body0_add c (grid0.coords t) (ms0_0 t) (hs0_0 t) (ms0_1 t) (hs0_1 t) (ms0_2 t) (hs0_2 t) (ms0_3 t) (hs0_3 t) acM0 (Memref.isWhole_whole _) hc0 hc1 (lhs0 V c t) (row0 V c t) (rhs0 V c t) _ Set.univ _)
      isplitl [H0]; · iexact H0
      isplitl [H1]; · iexact H1
      isplitl [H2]; · iexact H2
      isplitl [HS]; · iexact HS
      iintro ⟨H0, H1, H2, HS⟩
      isplitl [HS Hoth]
      · isplitl [HS]; · iexact HS
        iexact Hoth
      isplitl [Ho]; · iexact Ho
      isplitl [H0]; · iexact H0
      isplitl [H1]; · iexact H1
      isplitl [H2]; · iexact H2
      iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What a region hands its body (the class invariant) is the invariant before the first point; -/
theorem inv0_in (c : Dev nD) : Pipeline.ΦA spec0 c ⊢ (dat0 V c).Φ 0 := by
  rw [show (dat0 V c).Φ 0 = Inv0 V c 0 (Nat.zero_le _) from rfl]
  exact Idealize.SL.BI.Entails.refl _

/-- and after the last point the invariant gives it back, the accumulator's contents forgotten. -/
theorem inv0_out (c : Dev nD) : (dat0 V c).Φ (Fin.last cfg0.N) ⊢ Pipeline.ΦA spec0 c := by
  rw [show (dat0 V c).Φ (Fin.last cfg0.N) = Inv0 V c (Fin.last cfg0.N).val (Nat.le_of_lt_succ (Fin.last cfg0.N).isLt) from rfl]
  exact (Inv0_any V c _ _).trans (classInv0_close c)

end Cert.KernelIdeal.Hand

end
-- ==== Proof.KernelIdeal.Body1.lean ====
/-
  The body of the second call on whole staging buffers, one statement per reduction step kind. With the activation
  block at contents x (1024 x 1024) and the weight block at contents w (1024 x 1024, rows of the weight matrix), one
  step replaces the accumulator's contents a by `k1_pay2 x w a` — a plus the product of x with the TRANSPOSE of w (both
  blocks are read along their second axis). A clearing step first overwrites the accumulator with `k1_pay1` (all
  zero); the last step also stores `k1_pay3` of the new accumulator and the bias piece b (1 x 1024) — the accumulator
  with b added to every row — into the output block. Input blocks are handed back as found; away from the last step
  neither the bias piece nor the output block is touched.
-/
import proofs.«173463_j11252814316068_1_alg».proof.Proof.Gen.KernelIdeal.Launch
import proofs.«173463_j11252814316068_1_alg».proof.Proof.Gen.KernelIdeal.Skeleton
import proofs.«173463_j11252814316068_1_alg».proof.Proof.Gen.KernelIdeal.Points
import proofs.«173463_j11252814316068_1_alg».proof.Proof.KernelIdeal.Common
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- A clearing step (reduction step 0): the accumulator, at anything, ends at one step from zero. -/
theorem body1_clear (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (hc0 : clears1 i) (hc1 : ¬emits1 i)
    (x0 : Vec F S1024x1024 .f32) (x1 : Vec F S1024x1024 .bf16)
    (E : Set ℕ) (K : PUnit → sProp 𝕄) :
    iprop(owns (c : Thread nD τ) arg3 fullShare x0 ∗ owns (c : Thread nD τ) arg4 fullShare x1
        ∗ (∃ d, owns (c : Thread nD τ) arg7 fullShare d)
        ∗ (iprop(owns (c : Thread nD τ) arg3 fullShare x0 ∗ owns (c : Thread nD τ) arg4 fullShare x1
            ∗ owns (c : Thread nD τ) arg7 fullShare (k1_pay2 x0 x1 k1_pay1)) -∗ K ⟨⟩))
      ⊢ wp frame (wpE (defs₀ (F := F)) Variants.none c none) E (cc1__y_kernel i arg3 harg3 arg4 harg4 arg5 harg5 arg6 harg6 arg7 harg7) K := by
  simp only [cc1__y_kernel_eq_skeleton]; unfold cc1__y_kernel_skel
  unfold owns
  iintro ⟨⟨%f0, %hf0, H0⟩, ⟨%f1, %hf1, H1⟩, ⟨%ds, %fs, -, HS⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS
  ipureintro
  sl_unfold_words
  rw [View.read_writes_eq_canon _ _ _ (fun y => ⟨_, List.mem_cons_self, View.mem_set_unit_zero origin2 Facts₀.inb_S1024x1024_S1024x1024_0_0 y⟩)]
  simp only [View.canon_unit_zero (S := S1024x1024) origin2, View.canon_cons_unit_zero (S := S1024x1024) origin2, View.readAt_eq_ld, Memref.IsWhole.read_unread,
    View.ld_unit_zero (S := S1024x1024) origin2, View.ld_unit_zero (S := S1x1024) origin2r, View.readCov_unit_zero (S := S1024x1024) _ origin2]

set_option maxHeartbeats 1000000 in
/-- A middle step (reduction steps 1 and 2): the accumulator goes from `s` to one step from `s`. -/
theorem body1_add (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (hc0 : ¬clears1 i) (hc1 : ¬emits1 i)
    (x0 : Vec F S1024x1024 .f32) (x1 : Vec F S1024x1024 .bf16) (s : Vec F S1024x1024 .f32)
    (E : Set ℕ) (K : PUnit → sProp 𝕄) :
    iprop(owns (c : Thread nD τ) arg3 fullShare x0 ∗ owns (c : Thread nD τ) arg4 fullShare x1
        ∗ owns (c : Thread nD τ) arg7 fullShare s
        ∗ (iprop(owns (c : Thread nD τ) arg3 fullShare x0 ∗ owns (c : Thread nD τ) arg4 fullShare x1
            ∗ owns (c : Thread nD τ) arg7 fullShare (k1_pay2 x0 x1 s)) -∗ K ⟨⟩))
      ⊢ wp frame (wpE (defs₀ (F := F)) Variants.none c none) E (cc1__y_kernel i arg3 harg3 arg4 harg4 arg5 harg5 arg6 harg6 arg7 harg7) K := by
  simp only [cc1__y_kernel_eq_skeleton]; unfold cc1__y_kernel_skel
  unfold owns
  iintro ⟨⟨%f0, %hf0, H0⟩, ⟨%f1, %hf1, H1⟩, ⟨%fs, %hfs, HS⟩, Hk⟩
  obtain rfl := harg3.eq_unread hf0; obtain rfl := harg4.eq_unread hf1; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS
  ipureintro
  sl_unfold_words
  rw [View.read_writes_eq_canon _ _ _ (fun y => ⟨_, List.mem_cons_self, View.mem_set_unit_zero origin2 Facts₀.inb_S1024x1024_S1024x1024_0_0 y⟩)]
  simp only [View.canon_unit_zero (S := S1024x1024) origin2, View.canon_cons_unit_zero (S := S1024x1024) origin2, View.readAt_eq_ld, Memref.IsWhole.read_unread,
    View.ld_unit_zero (S := S1024x1024) origin2, View.ld_unit_zero (S := S1x1024) origin2r, View.readCov_unit_zero (S := S1024x1024) _ origin2]

set_option maxHeartbeats 1000000 in
/-- The last step (reduction step 3): the accumulator goes from `s` to one step from `s`, and the output block,
    at anything, ends at that with the bias piece added to every row. -/
theorem body1_emit (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (hc0 : ¬clears1 i) (hc1 : emits1 i)
    (x0 : Vec F S1024x1024 .f32) (x1 : Vec F S1024x1024 .bf16) (x2 : Vec F S1x1024 .f32) (s : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare s
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 x0 x1 s) x2) ∗ owns (c : Thread nD τ) arg7 fullShare (k1_pay2 x0 x1 s)) -∗ K ⟨⟩))
      ⊢ wp frame (wpE (defs₀ (F := F)) Variants.none c none) E (cc1__y_kernel i arg3 harg3 arg4 harg4 arg5 harg5 arg6 harg6 arg7 harg7) K := by
  simp only [cc1__y_kernel_eq_skeleton]; unfold cc1__y_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (fun y => ⟨_, List.mem_cons_self, View.mem_set_unit_zero origin2 Facts₀.inb_S1024x1024_S1024x1024_0_0 y⟩)]
    simp only [View.canon_unit_zero (S := S1024x1024) origin2, View.canon_cons_unit_zero (S := S1024x1024) origin2, View.readAt_eq_ld, Memref.IsWhole.read_unread,
      View.ld_unit_zero (S := S1024x1024) origin2, View.ld_unit_zero (S := S1x1024) origin2r, View.readCov_unit_zero (S := S1024x1024) _ origin2]
  iexists _; isplitr
  swap; · iexact HS
  ipureintro
  sl_unfold_words
  rw [View.read_writes_eq_canon _ _ _ (fun y => ⟨_, List.mem_cons_self, View.mem_set_unit_zero origin2 Facts₀.inb_S1024x1024_S1024x1024_0_0 y⟩)]
  simp only [View.canon_unit_zero (S := S1024x1024) origin2, View.canon_cons_unit_zero (S := S1024x1024) origin2, View.readAt_eq_ld, Memref.IsWhole.read_unread,
    View.ld_unit_zero (S := S1024x1024) origin2, View.ld_unit_zero (S := S1x1024) origin2r, View.readCov_unit_zero (S := S1024x1024) _ origin2]

end Cert.KernelIdeal.Hand

end
-- ==== Proof.KernelIdeal.Data1.lean ====
/-
  The second call (the linear layer) as a pipeline over its 128 grid points: what its accumulator holds after each
  point, by recursion on the point; the invariant that carries the accumulator from one point to the next; the proof
  data; and the body's obligation at every point, from the three statements about the body. Everything is stated at a
  parameter V, the core's buffer contents when the call is entered (its weight operand is what the first call left),
  and at any float instance.
-/
import proofs.«173463_j11252814316068_1_alg».proof.Proof.Gen.KernelIdeal.Launch
import proofs.«173463_j11252814316068_1_alg».proof.Proof.Gen.KernelIdeal.Skeleton
import proofs.«173463_j11252814316068_1_alg».proof.Proof.Gen.KernelIdeal.Points
import proofs.«173463_j11252814316068_1_alg».proof.Proof.KernelIdeal.Body1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the call is entered: everything here is stated at this parameter
variable (V : (c : Dev nD) → (b : Ref sig .tc) → Buf (Elt F) ((c : Thread nD τ).loc b))

/-! ## The windows' blocks -/

/-- Window `w`'s block at point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of the flattened activations at point `t`, -/
abbrev act1 (c : Dev nD) (t : Fin cfg1.N) : Vec F S1024x1024 .f32 := blk1 V c 0 t
/-- the block of the weight matrix (rows of it), -/
abbrev wgt1 (c : Dev nD) (t : Fin cfg1.N) : Vec F S1024x1024 .bf16 := blk1 V c 1 t
/-- and the piece of the bias row. -/
abbrev bias1 (c : Dev nD) (t : Fin cfg1.N) : Vec F S1x1024 .f32 := blk1 V c 2 t

/-! ## The accumulator, point by point -/

/-- What the accumulator holds after the body at point `n`: at a clearing point (`n` a multiple of 4) one step from
    zero, at any other point one step from what the point before left. -/
def acc1 (c : Dev nD) : (n : ℕ) → n < cfg1.N → Vec F S1024x1024 .f32
  | 0, hn => k1_pay2 (act1 V c ⟨0, hn⟩) (wgt1 V c ⟨0, hn⟩) k1_pay1
  | n + 1, hn =>
    if (n + 1) % 4 = 0 then k1_pay2 (act1 V c ⟨n + 1, hn⟩) (wgt1 V c ⟨n + 1, hn⟩) k1_pay1
    else k1_pay2 (act1 V c ⟨n + 1, hn⟩) (wgt1 V c ⟨n + 1, hn⟩) (acc1 c n (Nat.lt_of_succ_lt hn))

theorem acc1_clear (c : Dev nD) (t : Fin cfg1.N) (h0 : t.val % 4 = 0) :
    acc1 V c t.val t.isLt = k1_pay2 (act1 V c t) (wgt1 V c t) k1_pay1 := by
  obtain ⟨n, hn⟩ := t
  cases n with
  | zero => rfl
  | succ n => rw [acc1, if_pos h0]

theorem acc1_add (c : Dev nD) (t : Fin cfg1.N) (h0 : ¬t.val % 4 = 0) :
    acc1 V c t.val t.isLt
      = k1_pay2 (act1 V c t) (wgt1 V c t) (acc1 V c (t.val - 1) (Nat.lt_of_le_of_lt (Nat.sub_le _ _) t.isLt)) := by
  obtain ⟨n, hn⟩ := t
  cases n with
  | zero => exact absurd (Nat.zero_mod _) h0
  | succ n => rw [acc1, if_neg h0]; rfl

/-! ## The invariant and the proof data -/

/-- The call's invariant before point `n`: before the first point the class's (the accumulator at anything); afterwards
    the accumulator at what the point before left, beside the rest. -/
def Inv1 (c : Dev nD) : (n : ℕ) → n ≤ cfg1.N → sProp 𝕄
  | 0, _ => Pipeline.ΦA spec1 c
  | n + 1, hn => iprop(owns (c : Thread nD τ) acM1 fullShare (acc1 V c n hn) ∗ others1 c)

theorem Inv1_succ (c : Dev nD) (n : ℕ) (hn : n < cfg1.N) :
    Inv1 V c (n + 1) hn = iprop(owns (c : Thread nD τ) acM1 fullShare (acc1 V c n hn) ∗ others1 c) := rfl

theorem Inv1_pos (c : Dev nD) (n : ℕ) (h : n ≤ cfg1.N) (hz : n ≠ 0) :
    Inv1 V c n h = iprop(owns (c : Thread nD τ) acM1 fullShare (acc1 V c (n - 1) (by omega)) ∗ others1 c) := by
  cases n with
  | zero => exact absurd rfl hz
  | succ n => rfl

/-- Before any point the invariant lends the accumulator at SOME contents beside the rest. -/
theorem Inv1_any (c : Dev nD) (n : ℕ) (h : n ≤ cfg1.N) :
    Inv1 V c n h ⊢ iprop((∃ d, owns (c : Thread nD τ) acM1 fullShare d) ∗ others1 c) := by
  cases n with
  | zero => exact classInv1_open c
  | succ n =>
    rw [Inv1_succ]
    iintro ⟨HS, Ho⟩
    isplitl [HS]; · iexists _; iexact HS
    iexact Ho

/-- The proof data of this call on core `c`: the arrays as the call finds them; after the body at point `t` each input's
    buffer at its block and the output's at the accumulator's contents there with the bias piece added to every row (consulted only at the last reduction step, where
    the block is written back); the invariant above; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => k1_pay3 (acc1 V c t.val t.isLt) (bias1 V c t)
  Φ t := Inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = k1_pay3 (acc1 V c t.val t.isLt) (bias1 V c t) := by dsimp only [dat1]

theorem Inv1_castSucc (c : Dev nD) (t : Fin cfg1.N) :
    (dat1 V c).Φ t.castSucc = Inv1 V c t.val (Nat.le_of_lt t.isLt) := by
  dsimp only [dat1]; simp only [Fin.coe_castSucc]

/-- An input window's current staging buffer holds its block at every point, whether or not the pipeline fetched it
    there: where it did not, the block index has not moved since the last fetch and the body leaves inputs in place. -/
theorem found1_0 (c : Dev nD) (t : Fin cfg1.N) (d) : (dat1 V c).before 0 t d = blk1 V c 0 t :=
  ((dat1 V c).before_in_eq_fetched 0 rfl (fun _ => rfl) (fun _ _ _ => rfl)
      (fun t => by rw [after1_0]; unfold Dat.blockOf blk1; rw [A_eq1]; try rfl) t d).trans
    (by unfold Dat.fetched Dat.blockOf blk1; rw [A_eq1]; try rfl)
theorem found1_1 (c : Dev nD) (t : Fin cfg1.N) (d) : (dat1 V c).before 1 t d = blk1 V c 1 t :=
  ((dat1 V c).before_in_eq_fetched 1 rfl (fun _ => rfl) (fun _ _ _ => rfl)
      (fun t => by rw [after1_1]; unfold Dat.blockOf blk1; rw [A_eq1]; try rfl) t d).trans
    (by unfold Dat.fetched Dat.blockOf blk1; rw [A_eq1]; try rfl)
theorem found1_2 (c : Dev nD) (t : Fin cfg1.N) (d) : (dat1 V c).before 2 t d = blk1 V c 2 t :=
  ((dat1 V c).before_in_eq_fetched 2 rfl (fun _ => rfl) (fun _ _ _ => rfl)
      (fun t => by rw [after1_2]; unfold Dat.blockOf blk1; rw [A_eq1]; try rfl) t d).trans
    (by unfold Dat.fetched Dat.blockOf blk1; rw [A_eq1]; try rfl)

/-! ## The body obligation -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The inputs' buffers hold their blocks; the point's number modulo 4 says which kind of step
    it is; the invariant lends the accumulator (at what the point before left; at anything before a clearing step) and
    takes it back at this point's contents; away from the last step the output's buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [found1_0, found1_1, found1_2]
  rw [show (dat1 V c).owesAt () t.succ = (dat1 V c).owesAt () t.castSucc from rfl]
  rw [show (dat1 V c).Φ t.succ = Inv1 V c (t.val + 1) t.isLt from rfl, Inv1_succ, Inv1_castSucc]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  by_cases h0 : t.val % 4 = 0
  · have hc0 : clears1 (grid1.coords t) := (clears1_iff t).mpr h0
    have hc1 : ¬emits1 (grid1.coords t) := fun h => by have := (emits1_iff t).mp h; omega
    rw [Dat.leavesExact_idle (dat1 V c) 3 t (idle1_3 t hc1) (noFlush1_3 t hc1), acc1_clear V c t h0]
    iintro ⟨HΦ, Ho, ⟨%d0, H0⟩, ⟨%d1, H1⟩, ⟨%d2, H2⟩, H3⟩
    ihave HΦ' := (Inv1_any V c t.val (Nat.le_of_lt t.isLt)) $$ HΦ
    icases HΦ' with ⟨HS, Hoth⟩
    iapply (body1_clear c (grid1.coords t) (ms1_0 t) (hs1_0 t) (ms1_1 t) (hs1_1 t) (ms1_2 t) (hs1_2 t) (ms1_3 t) (hs1_3 t) acM1 (Memref.isWhole_whole _) hc0 hc1 (act1 V c t) (wgt1 V c t) Set.univ _)
    isplitl [H0]; · iexact H0
    isplitl [H1]; · iexact H1
    isplitl [HS]; · iexact HS
    iintro ⟨H0, H1, HS⟩
    isplitl [HS Hoth]
    · isplitl [HS]; · iexact HS
      iexact Hoth
    isplitl [Ho]; · iexact Ho
    isplitl [H0]; · iexact H0
    isplitl [H1]; · iexact H1
    isplitl [H2]; · iexact H2
    iexact H3
  · by_cases h1 : t.val % 4 = 3
    · have hc0 : ¬clears1 (grid1.coords t) := fun h => h0 ((clears1_iff t).mp h)
      have hc1 : emits1 (grid1.coords t) := (emits1_iff t).mpr h1
      rw [show (dat1 V c).leavesExact 3 t = owns (c : Thread nD τ) (ms1_3 t) fullShare ((dat1 V c).after 3 t) from by
        unfold Dat.leavesExact; rw [live1_3 t hc1], after1_3, acc1_add V c t h0,
        Inv1_pos V c _ _ (fun hz => h0 (by rw [hz]))]
      iintro ⟨⟨HS, Hoth⟩, Ho, ⟨%d0, H0⟩, ⟨%d1, H1⟩, ⟨%d2, H2⟩, ⟨%d3, H3⟩⟩
      iapply (body1_emit c (grid1.coords t) (ms1_0 t) (hs1_0 t) (ms1_1 t) (hs1_1 t) (ms1_2 t) (hs1_2 t) (ms1_3 t) (hs1_3 t) acM1 (Memref.isWhole_whole _) hc0 hc1 (act1 V c t) (wgt1 V c t) (bias1 V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth]
      · isplitl [HS]; · iexact HS
        iexact Hoth
      isplitl [Ho]; · iexact Ho
      isplitl [H0]; · iexact H0
      isplitl [H1]; · iexact H1
      isplitl [H2]; · iexact H2
      iexact H3
    · have hc0 : ¬clears1 (grid1.coords t) := fun h => h0 ((clears1_iff t).mp h)
      have hc1 : ¬emits1 (grid1.coords t) := fun h => h1 ((emits1_iff t).mp h)
      rw [Dat.leavesExact_idle (dat1 V c) 3 t (idle1_3 t hc1) (noFlush1_3 t hc1), acc1_add V c t h0,
        Inv1_pos V c _ _ (fun hz => h0 (by rw [hz]))]
      iintro ⟨⟨HS, Hoth⟩, Ho, ⟨%d0, H0⟩, ⟨%d1, H1⟩, ⟨%d2, H2⟩, H3⟩
      iapply (body1_add c (grid1.coords t) (ms1_0 t) (hs1_0 t) (ms1_1 t) (hs1_1 t) (ms1_2 t) (hs1_2 t) (ms1_3 t) (hs1_3 t) acM1 (Memref.isWhole_whole _) hc0 hc1 (act1 V c t) (wgt1 V c t) _ Set.univ _)
      isplitl [H0]; · iexact H0
      isplitl [H1]; · iexact H1
      isplitl [HS]; · iexact HS
      iintro ⟨H0, H1, HS⟩
      isplitl [HS Hoth]
      · isplitl [HS]; · iexact HS
        iexact Hoth
      isplitl [Ho]; · iexact Ho
      isplitl [H0]; · iexact H0
      isplitl [H1]; · iexact H1
      isplitl [H2]; · iexact H2
      iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What a region hands its body (the class invariant) is the invariant before the first point; -/
theorem inv1_in (c : Dev nD) : Pipeline.ΦA spec1 c ⊢ (dat1 V c).Φ 0 := by
  rw [show (dat1 V c).Φ 0 = Inv1 V c 0 (Nat.zero_le _) from rfl]
  exact Idealize.SL.BI.Entails.refl _

/-- and after the last point the invariant gives it back, the accumulator's contents forgotten. -/
theorem inv1_out (c : Dev nD) : (dat1 V c).Φ (Fin.last cfg1.N) ⊢ Pipeline.ΦA spec1 c := by
  rw [show (dat1 V c).Φ (Fin.last cfg1.N) = Inv1 V c (Fin.last cfg1.N).val (Nat.le_of_lt_succ (Fin.last cfg1.N).isLt) from rfl]
  exact (Inv1_any V c _ _).trans (classInv1_close c)

end Cert.KernelIdeal.Hand

end
-- ==== Proof.KernelIdeal.Run.lean ====
/-
  The whole program as a run. @main is: two host lines (S + ε, made a 1 x 4096 row), the first call, two host lines
  (the activations flattened to 8192 x 4096, the bias made a row), the second call, one host line (the result given its
  three-axis shape back). The core's unscoped buffers are followed through these five items as a fold from the launch
  memory: a host stretch applies its operations, a call changes its output array to what its write-backs leave and
  nothing else. Each call is entered from the contents the fold has there, and the run ends with every unscoped buffer
  at the fold's last stage — from which both the arguments (never written) and the result are read.
-/
import proofs.«173463_j11252814316068_1_alg».proof.Proof.Gen.KernelIdeal.Launch
import proofs.«173463_j11252814316068_1_alg».proof.Proof.Gen.KernelIdeal.Skeleton
import proofs.«173463_j11252814316068_1_alg».proof.Proof.Gen.KernelIdeal.Points
import proofs.«173463_j11252814316068_1_alg».proof.Proof.KernelIdeal.Data0
import proofs.«173463_j11252814316068_1_alg».proof.Proof.KernelIdeal.Data1
import proofs.«173463_j11252814316068_1_alg».proof.Proof.Gen.KernelIdeal.Regions
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => m (c, b)
/-- After the first two host lines (the first call's entry). -/
abbrev B1 : Dev nD → Valuation τ sig (Elt F) := fun c => StableHlo.after hostOps0 (B0 m c)
/-- The same read at the TensorCore's references: what the first call's proof data take. -/
abbrev E1 : (c : Dev nD) → (b : Ref sig .tc) → Buf (Elt F) ((c : Thread nD τ).loc b) := fun c b => B1 m c b

/-- At call 0's exit: its arrays at what the pipeline leaves (an input as entered, the output's write-backs folded),
    every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- The same read at the TensorCore's references. -/
abbrev E2 : (c : Dev nD) → (b : Ref sig .tc) → Buf (Elt F) ((c : Thread nD τ).loc b) := fun c b => B2 m c b
theorem left0 (c : Dev nD) (w : Fin cfg0.W) : (dat0 (E1 m) c).arrAt w cfg0.N = E2 m c (Pipeline.arrRef spec0 w) :=
  (B2_arr m c w).symm
theorem kept0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After the next two host lines (the second call's entry). -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b

/-- At call 1's exit: its arrays at what the pipeline leaves (an input as entered, the output's write-backs folded),
    every other buffer as entered. -/
def B4 (c : Dev nD) : Valuation τ sig (Elt F) :=
  Pipeline.withArrays spec1 c (B3 m c) fun w => (dat1 (E3 m) c).arrAt w cfg1.N
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
/-- The same read at the TensorCore's references. -/
abbrev E4 : (c : Dev nD) → (b : Ref sig .tc) → Buf (Elt F) ((c : Thread nD τ).loc b) := fun c b => B4 m c b
theorem left1 (c : Dev nD) (w : Fin cfg1.W) : (dat1 (E3 m) c).arrAt w cfg1.N = E4 m c (Pipeline.arrRef spec1 w) :=
  (B4_arr m c w).symm
theorem kept1 (c : Dev nD) : ∀ b, b ∉ Finset.univ.image (Pipeline.arrRef spec1) → E4 m c b = E3 m c b :=
  fun b hb => B4_of_ne m c b fun w e => hb (Finset.mem_image.mpr ⟨w, Finset.mem_univ _, e⟩)

/-- After the last host line: the end of @main. -/
abbrev B5 : Dev nD → Valuation τ sig (Elt F) := fun c => StableHlo.after hostOps2 (B4 m c)

/-! ## No item writes an argument -/

theorem atEnd_main_arg0 (c : Dev nD) : B5 m c (Proc.devRef .tc main_arg0) = m ((c : Thread nD τ).loc main_arg0) :=
  calc B5 m c (Proc.devRef .tc main_arg0)
    _ = B4 m c (Proc.devRef .tc main_arg0) := StableHlo.after_of_writes_sub hostOps2 _ hostOps2_writes (by decide)
    _ = B3 m c (Proc.devRef .tc main_arg0) := B4_of_ne m c main_arg0 (by decide)
    _ = B2 m c (Proc.devRef .tc main_arg0) := StableHlo.after_of_writes_sub hostOps1 _ hostOps1_writes (by decide)
    _ = B1 m c (Proc.devRef .tc main_arg0) := B2_of_ne m c main_arg0 (by decide)
    _ = B0 m c (Proc.devRef .tc main_arg0) := StableHlo.after_of_writes_sub hostOps0 _ hostOps0_writes (by decide)
    _ = m ((c : Thread nD τ).loc main_arg0) := rfl

theorem atEnd_main_arg1 (c : Dev nD) : B5 m c (Proc.devRef .tc main_arg1) = m ((c : Thread nD τ).loc main_arg1) :=
  calc B5 m c (Proc.devRef .tc main_arg1)
    _ = B4 m c (Proc.devRef .tc main_arg1) := StableHlo.after_of_writes_sub hostOps2 _ hostOps2_writes (by decide)
    _ = B3 m c (Proc.devRef .tc main_arg1) := B4_of_ne m c main_arg1 (by decide)
    _ = B2 m c (Proc.devRef .tc main_arg1) := StableHlo.after_of_writes_sub hostOps1 _ hostOps1_writes (by decide)
    _ = B1 m c (Proc.devRef .tc main_arg1) := (B2_arr m c 0).trans (((dat0 (E1 m) c).arrAt_in 0 rfl _).trans (A_eq0 (E1 m) c 0))
    _ = B0 m c (Proc.devRef .tc main_arg1) := StableHlo.after_of_writes_sub hostOps0 _ hostOps0_writes (by decide)
    _ = m ((c : Thread nD τ).loc main_arg1) := rfl

theorem atEnd_main_arg2 (c : Dev nD) : B5 m c (Proc.devRef .tc main_arg2) = m ((c : Thread nD τ).loc main_arg2) :=
  calc B5 m c (Proc.devRef .tc main_arg2)
    _ = B4 m c (Proc.devRef .tc main_arg2) := StableHlo.after_of_writes_sub hostOps2 _ hostOps2_writes (by decide)
    _ = B3 m c (Proc.devRef .tc main_arg2) := B4_of_ne m c main_arg2 (by decide)
    _ = B2 m c (Proc.devRef .tc main_arg2) := StableHlo.after_of_writes_sub hostOps1 _ hostOps1_writes (by decide)
    _ = B1 m c (Proc.devRef .tc main_arg2) := B2_of_ne m c main_arg2 (by decide)
    _ = B0 m c (Proc.devRef .tc main_arg2) := StableHlo.after_of_writes_sub hostOps0 _ hostOps0_writes (by decide)
    _ = m ((c : Thread nD τ).loc main_arg2) := rfl

theorem atEnd_main_arg3 (c : Dev nD) : B5 m c (Proc.devRef .tc main_arg3) = m ((c : Thread nD τ).loc main_arg3) :=
  calc B5 m c (Proc.devRef .tc main_arg3)
    _ = B4 m c (Proc.devRef .tc main_arg3) := StableHlo.after_of_writes_sub hostOps2 _ hostOps2_writes (by decide)
    _ = B3 m c (Proc.devRef .tc main_arg3) := B4_of_ne m c main_arg3 (by decide)
    _ = B2 m c (Proc.devRef .tc main_arg3) := StableHlo.after_of_writes_sub hostOps1 _ hostOps1_writes (by decide)
    _ = B1 m c (Proc.devRef .tc main_arg3) := (B2_arr m c 2).trans (((dat0 (E1 m) c).arrAt_in 2 rfl _).trans (A_eq0 (E1 m) c 2))
    _ = B0 m c (Proc.devRef .tc main_arg3) := StableHlo.after_of_writes_sub hostOps0 _ hostOps0_writes (by decide)
    _ = m ((c : Thread nD τ).loc main_arg3) := rfl

theorem atEnd_main_arg4 (c : Dev nD) : B5 m c (Proc.devRef .tc main_arg4) = m ((c : Thread nD τ).loc main_arg4) :=
  calc B5 m c (Proc.devRef .tc main_arg4)
    _ = B4 m c (Proc.devRef .tc main_arg4) := StableHlo.after_of_writes_sub hostOps2 _ hostOps2_writes (by decide)
    _ = B3 m c (Proc.devRef .tc main_arg4) := B4_of_ne m c main_arg4 (by decide)
    _ = B2 m c (Proc.devRef .tc main_arg4) := StableHlo.after_of_writes_sub hostOps1 _ hostOps1_writes (by decide)
    _ = B1 m c (Proc.devRef .tc main_arg4) := B2_of_ne m c main_arg4 (by decide)
    _ = B0 m c (Proc.devRef .tc main_arg4) := StableHlo.after_of_writes_sub hostOps0 _ hostOps0_writes (by decide)
    _ = m ((c : Thread nD τ).loc main_arg4) := rfl

theorem atEnd_main_arg5 (c : Dev nD) : B5 m c (Proc.devRef .tc main_arg5) = m ((c : Thread nD τ).loc main_arg5) :=
  calc B5 m c (Proc.devRef .tc main_arg5)
    _ = B4 m c (Proc.devRef .tc main_arg5) := StableHlo.after_of_writes_sub hostOps2 _ hostOps2_writes (by decide)
    _ = B3 m c (Proc.devRef .tc main_arg5) := B4_of_ne m c main_arg5 (by decide)
    _ = B2 m c (Proc.devRef .tc main_arg5) := StableHlo.after_of_writes_sub hostOps1 _ hostOps1_writes (by decide)
    _ = B1 m c (Proc.devRef .tc main_arg5) := B2_of_ne m c main_arg5 (by decide)
    _ = B0 m c (Proc.devRef .tc main_arg5) := StableHlo.after_of_writes_sub hostOps0 _ hostOps0_writes (by decide)
    _ = m ((c : Thread nD τ).loc main_arg5) := rfl

/-! ## The proof data family and the thread state -/

/-- Every pipeline's proof data, each at its call's entry contents (a literal match, so that the pinned configuration at a
    numeral reduces to the printed one). -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last stage, the generator register somewhere. -/
abbrev Tend (c : Dev nD) : sProp 𝕄 := iprop(StableHlo.held (c : Thread nD τ) (Pipeline.ucRefs τ sig) (B5 m c) ∗ ∃ r, prngReg c r)

/-! ## The calls as segments -/

-- applying a library lemma stated over the pinned configuration unifies with the printed one only when unification
-- may unfold plain definitions in a metavariable's type
set_option backward.isDefEq.respectTransparency.types false in
/-- Call 0 over the thread state: entered from every unscoped buffer at `B1`, left at `B2`. Its arrays are split out
    of the unscoped buffers and put back at the contents the pipeline leaves; the generator register and the scoped
    rest go into the call's invariant (the class's, before the first point) and come back out of it (after the last,
    the accumulator forgotten); nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec0 c : sProp 𝕄) ⊢ (pdats m 0 c).Φ 0 from inv0_in (E1 m) c)
    unfold Pipeline.ΦA
    iintro ⟨Hp, -, Hr⟩
    isplitl [Hr]; · iexact Hr
    iexact Hp
  hout c := by
    rw [Pipeline.ownSems0_none]
    refine (show (pdats m 0 c).Φ (Fin.last _) ⊢ (Pipeline.ΦA spec0 c : sProp 𝕄) from inv0_out (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification
-- may unfold plain definitions in a metavariable's type
set_option backward.isDefEq.respectTransparency.types false in
/-- Call 1 over the thread state: entered from every unscoped buffer at `B3`, left at `B4`. Its arrays are split out
    of the unscoped buffers and put back at the contents the pipeline leaves; the generator register and the scoped
    rest go into the call's invariant (the class's, before the first point) and come back out of it (after the last,
    the accumulator forgotten); nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m 1 c).Φ 0 from inv1_in (E3 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from inv1_out (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five items in order. -/
abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)) ]
/-- @main IS the run of the segments. -/
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every final state holds each unscoped buffer of each core at the fold's last stage. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tend m)
    (hch := ⟨fun _ => .rfl, fun _ => .rfl, fun _ => .rfl, fun _ => .rfl, fun _ => .rfl, fun c => by
      show (iprop(StableHlo.held (c : Thread nD τ) (Pipeline.ucRefs τ sig) (B5 m c) ∗ R c) : sProp 𝕄) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (atEnd_main_arg0 m c),
     (h c _ (mem_uc main_arg1 (by decide))).trans (atEnd_main_arg1 m c),
     (h c _ (mem_uc main_arg2 (by decide))).trans (atEnd_main_arg2 m c),
     (h c _ (mem_uc main_arg3 (by decide))).trans (atEnd_main_arg3 m c),
     (h c _ (mem_uc main_arg4 (by decide))).trans (atEnd_main_arg4 m c),
     (h c _ (mem_uc main_arg5 (by decide))).trans (atEnd_main_arg5 m c)⟩) (run_all m ρ)

end Cert.KernelIdeal.Hand

end
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.LibDotRows.lean ====
/-
  A two-dimensional contraction in which BOTH operands are read along their second axis (rows x inner times
  columns x inner, no batch axis), read at an index. At the extended reals the matrix unit's product into a zero
  accumulator and the host's dot product are both the sum, over the inner index k, of the left operand's entry
  (row, k) times the right operand's entry (column, k).
-/
import Idealize.ShloMosaic.Lib.ValueIdx
import Idealize.ShloMosaic.PureOps.Ideal.Laws

noncomputable section

namespace Cert.DotRows

open Idealize.ShloMosaic Idealize.ShloMosaic.ValueIdx

variable {M K N : Nat}

/-- The left operand is read on its row axis at the output's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand is read on its inner axis at the contraction index. -/
theorem lhs_inner (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand is read on its row axis at the output's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand is read on its inner axis at the contraction index. -/
theorem rhs_inner (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The contraction's sum re-indexed by the inner coordinate. -/
theorem sum_contr (A : (⟨2, ![M, K]⟩ : Shape).Idx → EReal) (B : (⟨2, ![N, K]⟩ : Shape).Idx → EReal)
    (j : (⟨2, ![M, N]⟩ : Shape).Idx) :
    (∑ q : (DotDims.transposedRhs M K N).contr.Idx,
        A ((DotDims.transposedRhs M K N).lhsIdx j q) * B ((DotDims.transposedRhs M K N).rhsIdx j q))
      = ∑ k : Fin K, A (ix2 (j 0) k) * B (ix2 (j 1) k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k)
      = ix2 (j 0) k :=
    funext fun a => Fin.ext (by
      match a with
      | ⟨0, _⟩ => exact lhs_row _ _
      | ⟨1, _⟩ => exact (lhs_inner _ _).trans hk)
  have er : (DotDims.transposedRhs M K N).rhsIdx j ((contrEquiv1 (DotDims.transposedRhs M K N) K rfl rfl).symm k)
      = ix2 (j 1) k :=
    funext fun a => Fin.ext (by
      match a with
      | ⟨0, _⟩ => exact rhs_row _ _
      | ⟨1, _⟩ => exact (rhs_inner _ _).trans hk)
  exact congrArg₂ (· * ·) (congrArg A el) (congrArg B er)

/-- The matrix unit's product into the zero accumulator, at an output index: the sum of products along both
    operands' second axes. -/
theorem matmul_zero_apply {φ₁ φ₂ : FTy} (prec : Option ContractPrecision)
    (A : FVec Ideal (⟨2, ![M, K]⟩ : Shape) φ₁) (B : FVec Ideal (⟨2, ![N, K]⟩ : Shape) φ₂) (j : (⟨2, ![M, N]⟩ : Shape).Idx) :
    FloatOps.matmul (DotDims.transposedRhs M K N) prec A B (constant (⟨2, ![M, N]⟩ : Shape) .f32 0x00000000#32) j
      = ∑ k : Fin K, A (ix2 (j 0) k) * B (ix2 (j 1) k) :=
  (Ideal.matmul_constant_zero_apply (DotDims.transposedRhs M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![N, K]⟩ : Shape) φ₂) (j : (⟨2, ![M, N]⟩ : Shape).Idx) :
    FloatOps.dotGeneral (DotDims.transposedRhs M K N) prec sched A B j
      = ∑ k : Fin K, A (ix2 (j 0) k) * B (ix2 (j 1) k) :=
  (Ideal.dotGeneral_apply (DotDims.transposedRhs M K N) prec sched A B j).trans (sum_contr A B j)

end Cert.DotRows

end
-- ==== Proof.PayIdeal.lean ====
/-
  The two bodies' arithmetic read at one entry, over the extended reals (where a change of float format is the
  identity and the matrix unit's product into a zero accumulator is the plain sum of products).
-/
import proofs.«173463_j11252814316068_1_alg».proof.Proof.Gen.KernelIdeal.Skeleton
import proofs.«173463_j11252814316068_1_alg».proof.Proof.LibPlainDot
import proofs.«173463_j11252814316068_1_alg».proof.Proof.LibDotRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayIdeal

open Idealize.ShloMosaic Idealize.ShloMosaic.ValueIdx
open Cert.KernelIdeal Cert.KernelIdeal.Gen
open scoped BigOperators

/-- The first body's clearing value is zero everywhere. -/
theorem clear0_apply (j : S1024x1024.Idx) : k0_pay1 (F := Ideal) j = 0 := by
  show shapeCast S1024x1024 (broadcast S1024x1024 (Scalar.ofBits (F := Ideal) .f32 0x00000000#32))
    shapeCasts_S1024x1024_S1024x1024 j = 0
  rw [shapeCast_self]
  exact Ideal.ofBits_zero_f32

/-- One step of the first body at entry (p, q): the old entry plus Σ_k (u[p,k] · r[0,k]) · v[k,q]. -/
theorem step0_apply (x0 : Vec Ideal S1024x1024 .f32) (x1 : Vec Ideal S1x1024 .f32) (x2 s : Vec Ideal S1024x1024 .f32)
    (p q : Fin 1024) :
    k0_pay2 x0 x1 x2 s (ix2 p q)
      = s (ix2 p q) + ∑ k : Fin 1024, (x0 (ix2 p k) * x1 (ix2 (0 : Fin 1) k)) * x2 (ix2 k q) := by
  unfold k0_pay2
  rw [shapeCast_self, shapeCast_self]
  show s (ix2 p q) + FloatOps.matmul (F := Ideal) (DotDims.plain 1024 1024 1024) none _ _ _ (ix2 p q) = _
  rw [Cert.PlainDot.matmul_zero_apply]
  refine congrArg (s (ix2 p q) + ·) (Finset.sum_congr rfl fun k _ => ?_)
  show (x0 (ix2 p k) * broadcastTo (⟨2, ![1024, 1024]⟩ : Shape) x1 broadcasts_S1x1024_S1024x1024 (ix2 p k)) * x2 (ix2 k q) = _
  rw [broadcastTo_1b_ab_apply]

/-- The first body's output block is the accumulator itself (the narrowing is the identity). -/
theorem emit0_eq (v : Vec Ideal S1024x1024 .f32) : k0_pay3 v = v := rfl

/-- The second body's clearing value is zero everywhere. -/
theorem clear1_apply (j : S1024x1024.Idx) : k1_pay1 (F := Ideal) j = 0 := by
  show shapeCast S1024x1024 (broadcast S1024x1024 (Scalar.ofBits (F := Ideal) .f32 0x00000000#32))
    shapeCasts_S1024x1024_S1024x1024 j = 0
  rw [shapeCast_self]
  exact Ideal.ofBits_zero_f32

/-- One step of the second body at entry (p, q): the old entry plus Σ_k x[p,k] · w[q,k] (both operands read along
    their SECOND axis). -/
theorem step1_apply (x0 : Vec Ideal S1024x1024 .f32) (x1 : Vec Ideal S1024x1024 .bf16) (s : Vec Ideal S1024x1024 .f32)
    (p q : Fin 1024) :
    k1_pay2 x0 x1 s (ix2 p q) = s (ix2 p q) + ∑ k : Fin 1024, x0 (ix2 p k) * x1 (ix2 q k) := by
  unfold k1_pay2
  rw [shapeCast_self, shapeCast_self, shapeCast_self]
  show s (ix2 p q) + FloatOps.matmul (F := Ideal) (DotDims.transposedRhs 1024 1024 1024) none _ _ _ (ix2 p q) = _
  rw [Cert.DotRows.matmul_zero_apply]
  rfl

/-- The second body's output block at (p, q): the accumulator's entry plus the bias piece's entry (0, q). -/
theorem emit1_apply (v : Vec Ideal S1024x1024 .f32) (b : Vec Ideal S1x1024 .f32) (p q : Fin 1024) :
    k1_pay3 v b (ix2 p q) = v (ix2 p q) + b (ix2 (0 : Fin 1) q) := by
  unfold k1_pay3
  rw [shapeCast_self]
  show v (ix2 p q) + broadcastTo (⟨2, ![1024, 1024]⟩ : Shape) b broadcasts_S1x1024_S1024x1024 (ix2 p q) = _
  rw [broadcastTo_1b_ab_apply]

end Cert.KernelIdeal.PayIdeal

end
-- ==== Proof.Spec.lean ====
/-
  What the program computes, over the extended reals. From a left factor U, a scale row S + ε and a right factor Vt the
  weight matrix is W[o, c] = Σ_r (U[o, r] · (S[r] + ε[r])) · Vt[r, c], and from activations x and a bias row b the result is
  y[b, t, o] = (Σ_k x[b, t, k] · W[o, k]) + bias[o]. Both sums run over 4096 terms; the kernels add them up in four
  consecutive blocks of 1024, starting from zero, and the sum over the whole range is the sum of the block sums
  (addition of extended reals is commutative and associative, so no finiteness is needed).
-/
import Idealize.ShloMosaic.Lib.ValueIdx
import Idealize.ShloMosaic.PureOps.Ideal.Laws
import Mathlib.Algebra.BigOperators.Fin
import Mathlib.Data.Fintype.BigOperators
import Mathlib.Logic.Equiv.Fin.Basic

noncomputable section

namespace Cert.Spec

open Idealize.ShloMosaic Idealize.ShloMosaic.ValueIdx
open scoped BigOperators

abbrev Row : Shape := ⟨1, ![4096]⟩
abbrev Mat : Shape := ⟨2, ![4096, 4096]⟩
abbrev Act : Shape := ⟨3, ![4, 2048, 4096]⟩
abbrev Flat : Shape := ⟨2, ![8192, 4096]⟩

/-- The weight matrix: the left factor, its columns scaled by S + ε, times the right factor. -/
def weight (U : Mat.Idx → EReal) (S ε : Row.Idx → EReal) (Vt : Mat.Idx → EReal) : Mat.Idx → EReal :=
  fun j => ∑ r : Fin 4096, (U (ix2 (j 0) r) * (S (ix1 r) + ε (ix1 r))) * Vt (ix2 r (j 1))

/-- The linear layer: every activation row against every ROW of the weight matrix, plus the bias. -/
def linear (x : Act.Idx → EReal) (W : Mat.Idx → EReal) (b : Row.Idx → EReal) : Act.Idx → EReal :=
  fun i => (∑ k : Fin 4096, x (ix3 (i 0) (i 1) k) * W (ix2 (i 2) k)) + b (ix1 (i 2))

/-- Position `k` of block `b` of a range of 4096 cut into four blocks of 1024. -/
def inBlock (b : Fin 4) (k : Fin 1024) : Fin 4096 := ⟨1024 * b.val + k.val, by omega⟩

/-- A sum over 4096 terms is the four block sums added in order onto zero. -/
theorem sum_by_blocks (f : Fin 4096 → EReal) :
    ∑ r : Fin 4096, f r
      = ((((0 + ∑ k : Fin 1024, f (inBlock 0 k)) + ∑ k : Fin 1024, f (inBlock 1 k)) + ∑ k : Fin 1024, f (inBlock 2 k))
          + ∑ k : Fin 1024, f (inBlock 3 k)) := by
  -- Re-index the range by (block, position in the block): r = 1024 · b + k.
  have h : ∑ p : Fin 4 × Fin 1024, f (inBlock p.1 p.2) = ∑ r : Fin 4096, f r := by
    refine Fintype.sum_equiv (finProdFinEquiv (m := 4) (n := 1024)) _ _ ?_
    rintro ⟨b, k⟩
    congr 1
    apply Fin.ext
    show 1024 * b.val + k.val = k.val + 1024 * b.val
    omega
  -- The sum over pairs is the iterated sum, and the outer sum has four terms.
  rw [← h, Fintype.sum_prod_type, Fin.sum_univ_four, zero_add]

end Cert.Spec

end
-- ==== Proof.KernelIdeal.Value0.lean ====
/-
  What the first call leaves in its output array, over the extended reals: entry (o, c) of the weight matrix is
  Σ_r (U[o, r] · s[0, r]) · Vt[r, c], where U, s, Vt are the contents of its three operands at entry. Grid point number
  16 i + 4 j + k works on row block i, column block j, at reduction step k; by induction on the step the accumulator
  then holds the sum of the first k + 1 block sums (onto zero), and the four block sums are the whole sum; the output
  block (i, j) is written once, at step 3, and the sixteen blocks tile the array.
-/
import proofs.«173463_j11252814316068_1_alg».proof.Proof.KernelIdeal.Data0
import proofs.«173463_j11252814316068_1_alg».proof.Proof.PayIdeal
import proofs.«173463_j11252814316068_1_alg».proof.Proof.Spec
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

-- the core's buffer contents when the call is entered, over the extended reals
variable (V : (c : Dev nD) → (b : Ref sig .tc) → Buf (Elt Ideal) ((c : Thread nD τ).loc b))

/-- The operands as the call finds them, at their literal types. -/
abbrev opU (c : Dev nD) : Vec Ideal S4096x4096 .f32 := V c main_arg1
abbrev opS (c : Dev nD) : Vec Ideal S1x4096 .f32 := V c main_v1
abbrev opVt (c : Dev nD) : Vec Ideal S4096x4096 .f32 := V c main_arg3

/-- The weight matrix as a function of the three operands. -/
def weightOf (c : Dev nD) : S4096x4096.Idx → EReal :=
  fun j => ∑ r : Fin 4096, (opU V c (ix2 (j 0) r) * opS V c (ix2 (0 : Fin 1) r)) * opVt V c (ix2 r (j 1))

/-! ## The printed index maps over the grid -/

/-- At point number `t` the left factor's block is (t / 16, t % 4), the scale row's piece (0, t % 4), the right
    factor's block (t % 4, t / 4 % 4) and the output's block (t / 16, t / 4 % 4). -/
theorem idx_facts0 : ∀ t : Fin cfg0.N,
    win0_0.index t (0 : Fin 2) = t.val / 16 ∧ win0_0.index t (1 : Fin 2) = t.val % 4
    ∧ win0_1.index t (0 : Fin 2) = 0 ∧ win0_1.index t (1 : Fin 2) = t.val % 4
    ∧ win0_2.index t (0 : Fin 2) = t.val % 4 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-! ## The input blocks at an entry -/

/-- Entry (p, k) of the left factor's block at point `t` is the left factor at (1024 (t / 16) + p, 1024 (t % 4) + k). -/
theorem lhs0_apply (c : Dev nD) (t : Fin cfg0.N) (p k : Fin 1024) (r o : Fin 4096)
    (hr : r.val = 1024 * (t.val / 16) + p.val) (ho : o.val = 1024 * (t.val % 4) + k.val) :
    lhs0 V c t (ix2 p k) = opU V c (ix2 r o) := by
  obtain ⟨e0, e1, -⟩ := idx_facts0 t
  show opU V c (((cfg0.win 0).blk t).view.emb (ix2 p k)) = opU V c (ix2 r o)
  refine congrArg (opU V c) (funext fun a => Fin.ext ?_)
  match a with
  | ⟨0, _⟩ => show win0_0.index t (0 : Fin 2) * 1024 + 1 * p.val = r.val; omega
  | ⟨1, _⟩ => show win0_0.index t (1 : Fin 2) * 1024 + 1 * k.val = o.val; omega

/-- Entry (0, k) of the scale row's piece at point `t` is the scale row at (0, 1024 (t % 4) + k). -/
theorem row0_apply (c : Dev nD) (t : Fin cfg0.N) (k : Fin 1024) (o : Fin 4096)
    (ho : o.val = 1024 * (t.val % 4) + k.val) :
    row0 V c t (ix2 (0 : Fin 1) k) = opS V c (ix2 (0 : Fin 1) o) := by
  obtain ⟨-, -, e2, e3, -⟩ := idx_facts0 t
  show opS V c (((cfg0.win 1).blk t).view.emb (ix2 (0 : Fin 1) k)) = opS V c (ix2 (0 : Fin 1) o)
  refine congrArg (opS V c) (funext fun a => Fin.ext ?_)
  match a with
  | ⟨0, _⟩ => show win0_1.index t (0 : Fin 2) * 1 + 1 * 0 = 0; omega
  | ⟨1, _⟩ => show win0_1.index t (1 : Fin 2) * 1024 + 1 * k.val = o.val; omega

/-- Entry (k, q) of the right factor's block at point `t` is the right factor at
    (1024 (t % 4) + k, 1024 (t / 4 % 4) + q). -/
theorem rhs0_apply (c : Dev nD) (t : Fin cfg0.N) (k q : Fin 1024) (o C : Fin 4096)
    (ho : o.val = 1024 * (t.val % 4) + k.val) (hC : C.val = 1024 * (t.val / 4 % 4) + q.val) :
    rhs0 V c t (ix2 k q) = opVt V c (ix2 o C) := by
  obtain ⟨-, -, -, -, e4, e5, -⟩ := idx_facts0 t
  show opVt V c (((cfg0.win 2).blk t).view.emb (ix2 k q)) = opVt V c (ix2 o C)
  refine congrArg (opVt V c) (funext fun a => Fin.ext ?_)
  match a with
  | ⟨0, _⟩ => show win0_2.index t (0 : Fin 2) * 1024 + 1 * k.val = o.val; omega
  | ⟨1, _⟩ => show win0_2.index t (1 : Fin 2) * 1024 + 1 * q.val = C.val; omega

/-! ## The accumulator, step by step -/

/-- Term `r` of the sum for output entry (R, C). -/
def term (c : Dev nD) (R C r : Fin 4096) : EReal :=
  (opU V c (ix2 R r) * opS V c (ix2 (0 : Fin 1) r)) * opVt V c (ix2 r C)

/-- One step at point `t`, at entry (p, q) of the block: the old entry plus the block sum of reduction step t % 4 for the
    output entry (1024 (t / 16) + p, 1024 (t / 4 % 4) + q). -/
theorem step_at (c : Dev nD) (t : Fin cfg0.N) (s : Vec Ideal S1024x1024 .f32) (p q : Fin 1024) (R C : Fin 4096) (b : Fin 4)
    (hR : R.val = 1024 * (t.val / 16) + p.val) (hC : C.val = 1024 * (t.val / 4 % 4) + q.val) (hb : b.val = t.val % 4) :
    k0_pay2 (lhs0 V c t) (row0 V c t) (rhs0 V c t) s (ix2 p q)
      = s (ix2 p q) + ∑ k : Fin 1024, term V c R C (Cert.Spec.inBlock b k) := by
  refine (PayIdeal.step0_apply (lhs0 V c t) (row0 V c t) (rhs0 V c t) s p q).trans ?_
  refine congrArg (s (ix2 p q) + ·) (Finset.sum_congr rfl fun k _ => ?_)
  have ho : (Cert.Spec.inBlock b k).val = 1024 * (t.val % 4) + k.val := by
    show 1024 * b.val + k.val = _
    rw [hb]
  exact congrArg₂ (· * ·)
    (congrArg₂ (· * ·) (lhs0_apply V c t p k R _ hR ho) (row0_apply V c t k _ ho))
    (rhs0_apply V c t k q _ C ho hC)

/-- After a point at reduction step 0: zero plus the first block sum. -/
theorem acc_s0 (c : Dev nD) (t : Fin cfg0.N) (h : t.val % 4 = 0) (p q : Fin 1024) (R C : Fin 4096)
    (hR : R.val = 1024 * (t.val / 16) + p.val) (hC : C.val = 1024 * (t.val / 4 % 4) + q.val) :
    acc0 V c t.val t.isLt (ix2 p q) = 0 + ∑ k : Fin 1024, term V c R C (Cert.Spec.inBlock 0 k) := by
  refine (congrFun (acc0_clear V c t h) (ix2 p q)).trans ?_
  refine (step_at V c t _ p q R C 0 hR hC (by rw [h]; rfl)).trans ?_
  exact congrArg (· + _) (PayIdeal.clear0_apply (ix2 p q))

/-- After a point at reduction step 1: the first two block sums. -/
theorem acc_s1 (c : Dev nD) (t : Fin cfg0.N) (h : t.val % 4 = 1) (p q : Fin 1024) (R C : Fin 4096)
    (hR : R.val = 1024 * (t.val / 16) + p.val) (hC : C.val = 1024 * (t.val / 4 % 4) + q.val) :
    acc0 V c t.val t.isLt (ix2 p q)
      = (0 + ∑ k : Fin 1024, term V c R C (Cert.Spec.inBlock 0 k)) + ∑ k : Fin 1024, term V c R C (Cert.Spec.inBlock 1 k) := by
  have hN : cfg0.N = 64 := N_0
  have hlt := t.isLt
  refine (congrFun (acc0_add V c t (by omega)) (ix2 p q)).trans ?_
  refine (step_at V c t _ p q R C 1 hR hC (by rw [h]; rfl)).trans ?_
  exact congrArg (· + _) (acc_s0 V c ⟨t.val - 1, by omega⟩ (by show (t.val - 1) % 4 = 0; omega) p q R C
    (by show R.val = 1024 * ((t.val - 1) / 16) + p.val; omega) (by show C.val = 1024 * ((t.val - 1) / 4 % 4) + q.val; omega))

/-- After a point at reduction step 2: the first three block sums. -/
theorem acc_s2 (c : Dev nD) (t : Fin cfg0.N) (h : t.val % 4 = 2) (p q : Fin 1024) (R C : Fin 4096)
    (hR : R.val = 1024 * (t.val / 16) + p.val) (hC : C.val = 1024 * (t.val / 4 % 4) + q.val) :
    acc0 V c t.val t.isLt (ix2 p q)
      = ((0 + ∑ k : Fin 1024, term V c R C (Cert.Spec.inBlock 0 k)) + ∑ k : Fin 1024, term V c R C (Cert.Spec.inBlock 1 k))
          + ∑ k : Fin 1024, term V c R C (Cert.Spec.inBlock 2 k) := by
  have hN : cfg0.N = 64 := N_0
  have hlt := t.isLt
  refine (congrFun (acc0_add V c t (by omega)) (ix2 p q)).trans ?_
  refine (step_at V c t _ p q R C 2 hR hC (by rw [h]; rfl)).trans ?_
  exact congrArg (· + _) (acc_s1 V c ⟨t.val - 1, by omega⟩ (by show (t.val - 1) % 4 = 1; omega) p q R C
    (by show R.val = 1024 * ((t.val - 1) / 16) + p.val; omega) (by show C.val = 1024 * ((t.val - 1) / 4 % 4) + q.val; omega))

/-- After a point at the last reduction step: the whole sum. -/
theorem acc_s3 (c : Dev nD) (t : Fin cfg0.N) (h : t.val % 4 = 3) (p q : Fin 1024) (R C : Fin 4096)
    (hR : R.val = 1024 * (t.val / 16) + p.val) (hC : C.val = 1024 * (t.val / 4 % 4) + q.val) :
    acc0 V c t.val t.isLt (ix2 p q) = ∑ r : Fin 4096, term V c R C r := by
  have hN : cfg0.N = 64 := N_0
  have hlt := t.isLt
  refine (congrFun (acc0_add V c t (by omega)) (ix2 p q)).trans ?_
  refine (step_at V c t _ p q R C 3 hR hC (by rw [h]; rfl)).trans ?_
  refine (congrArg (· + _) (acc_s2 V c ⟨t.val - 1, by omega⟩ (by show (t.val - 1) % 4 = 2; omega) p q R C
    (by show R.val = 1024 * ((t.val - 1) / 16) + p.val; omega) (by show C.val = 1024 * ((t.val - 1) / 4 % 4) + q.val; omega))).trans ?_
  exact (Cert.Spec.sum_by_blocks (term V c R C)).symm

/-! ## From the output's blocks to the array -/

/-- What a point at the last reduction step writes back is its block of the weight matrix. -/
theorem flushed0_eq (c : Dev nD) (t : Fin cfg0.N) (hf : (cfg0.win 3).flush t = true) :
    (dat0 (F := Ideal) V c).flushed 3 t = ((cfg0.win 3).blk t).view.read (Elt Ideal) (weightOf V c) := by
  have h3 : t.val % 4 = 3 := (flush0_3 t).mp hf
  have hN : cfg0.N = 64 := N_0
  have hlt := t.isLt
  obtain ⟨-, -, -, -, -, -, e6, e7⟩ := idx_facts0 t
  show (cfg0.win 3).cut (grid0.coords t) ((dat0 (F := Ideal) V c).after 3 t) = _
  rw [after0_3, PayIdeal.emit0_eq]
  funext y
  obtain ⟨p, q, rfl⟩ : ∃ (p q : Fin 1024), y = ix2 p q := ⟨y 0, y 1, eq_ix2 (n0 := 1024) (n1 := 1024) y⟩
  have he : ((cfg0.win 3).blk t).view.emb (ix2 p q)
      = ix2 (⟨1024 * (t.val / 16) + p.val, by omega⟩ : Fin 4096) (⟨1024 * (t.val / 4 % 4) + q.val, by omega⟩ : Fin 4096) :=
    funext fun a => Fin.ext (by
      match a with
      | ⟨0, _⟩ => show win0_3.index t (0 : Fin 2) * 1024 + 1 * p.val = 1024 * (t.val / 16) + p.val; omega
      | ⟨1, _⟩ => show win0_3.index t (1 : Fin 2) * 1024 + 1 * q.val = 1024 * (t.val / 4 % 4) + q.val; omega)
  show acc0 V c t.val t.isLt (ix2 p q) = weightOf V c (((cfg0.win 3).blk t).view.emb (ix2 p q))
  rw [he]
  exact acc_s3 V c t h3 p q _ _ rfl rfl

/-- An index of the output array is in point `t`'s block iff each coordinate is in the block's range on its axis. -/
theorem mem_blk0 (t : Fin cfg0.N) (i : S4096x4096.Idx) :
    i ∈ ((cfg0.win 3).blk t).view.set
      ↔ ∀ a : Fin 2, win0_3.index t a * S1024x1024.size a ≤ (i a).val
          ∧ (i a).val < win0_3.index t a * S1024x1024.size a + S1024x1024.size a := by
  show i ∈ ((View.whole main_v2).slice (win0_3.rect t)).set ↔ _
  rw [View.set_slice_whole, Rect.mem_set_unit]
  exact Iff.rfl

/-- The sixteen output blocks tile the array: entry (r, o) is in the block written at point
    16 (r / 1024) + 4 (o / 1024) + 3. -/
theorem cover0 (i : S4096x4096.Idx) :
    ∃ t : Fin cfg0.N, (cfg0.win 3).flush t = true ∧ i ∈ ((cfg0.win 3).blk t).view.set := by
  have h0 : (i 0).val < 4096 := (i 0).isLt
  have h1 : (i 1).val < 4096 := (i 1).isLt
  have hN : cfg0.N = 64 := N_0
  obtain ⟨t, ht⟩ : ∃ t : Fin cfg0.N, t.val = 16 * ((i 0).val / 1024) + 4 * ((i 1).val / 1024) + 3 :=
    ⟨⟨16 * ((i 0).val / 1024) + 4 * ((i 1).val / 1024) + 3, by omega⟩, rfl⟩
  obtain ⟨-, -, -, -, -, -, e6, e7⟩ := idx_facts0 t
  refine ⟨t, (flush0_3 t).mpr (by omega), ?_⟩
  rw [mem_blk0]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- After the run the first call's output array holds the weight matrix. -/
theorem call0_result (c : Dev nD) : (dat0 (F := Ideal) V c).arrAt 3 cfg0.N = weightOf V c :=
  (dat0 (F := Ideal) V c).arrAt_eq_of_cover 3 (weightOf V c) (fun t hf => flushed0_eq V c t hf) (fun i => cover0 i)

end Cert.KernelIdeal.Hand

end
-- ==== Proof.KernelIdeal.Value1.lean ====
/-
  What the second call leaves in its output array, over the extended reals: entry (r, o) of the flattened result is
  (Σ_k X[r, k] · W[o, k]) + b[0, o], where X, W, b are the contents of its three operands at entry (the flattened
  activations, the weight matrix, the bias row). Grid point number 16 i + 4 j + k works on row block i of X, row block j
  of W, at reduction step k; by induction on the step the accumulator then holds the sum of the first k + 1 block sums
  (onto zero), the four block sums are the whole sum, and the bias piece is added when the output block (i, j) is
  written, once, at step 3; the thirty-two blocks tile the array.
-/
import proofs.«173463_j11252814316068_1_alg».proof.Proof.KernelIdeal.Data1
import proofs.«173463_j11252814316068_1_alg».proof.Proof.PayIdeal
import proofs.«173463_j11252814316068_1_alg».proof.Proof.Spec
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

-- the core's buffer contents when the call is entered, over the extended reals
variable (V : (c : Dev nD) → (b : Ref sig .tc) → Buf (Elt Ideal) ((c : Thread nD τ).loc b))

/-- The operands as the call finds them, at their literal types. -/
abbrev opX (c : Dev nD) : Vec Ideal S8192x4096 .f32 := V c main_v3
abbrev opW (c : Dev nD) : Vec Ideal S4096x4096 .bf16 := V c main_v2
abbrev opB (c : Dev nD) : Vec Ideal S1x4096 .f32 := V c main_v4

/-- The linear layer on the flattened activations, as a function of the three operands. -/
def linearOf (c : Dev nD) : S8192x4096.Idx → EReal :=
  fun j => (∑ k : Fin 4096, opX V c (ix2 (j 0) k) * opW V c (ix2 (j 1) k)) + opB V c (ix2 (0 : Fin 1) (j 1))

/-! ## The grid's points and the printed index maps -/

/-- The call has 128 grid points. -/
theorem pt1_lt128 (t : Fin cfg1.N) : t.val < 128 := Nat.lt_of_lt_of_eq t.isLt N_1

/-- The block index of every window at point number t, whose coordinates are (t / 16, t / 4 % 4, t % 4): decided once
    over the grid. -/
theorem idx_facts1 : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4 :=
  (by decide +kernel : ∀ t : Fin grid1.N, _)

/-- The row of the flattened activations (and of the output) under row p of point t's block, -/
def rowAt1 (t : Fin cfg1.N) (p : Fin 1024) : Fin 8192 :=
  ⟨1024 * (t.val / 16) + p.val, by have := pt1_lt128 t; have := p.isLt; omega⟩
/-- the row of the weight matrix (the column of the output) under row q of point t's block, -/
def colAt1 (t : Fin cfg1.N) (q : Fin 1024) : Fin 4096 :=
  ⟨1024 * (t.val / 4 % 4) + q.val, by have := q.isLt; omega⟩
/-- and the reduction step of point number n, -/
def stepOf1 (n : ℕ) : Fin 4 := ⟨n % 4, Nat.mod_lt _ (by decide)⟩
/-- point t's own. -/
abbrev stepAt1 (t : Fin cfg1.N) : Fin 4 := stepOf1 t.val

/-! ## The input blocks, read at an entry -/

/-- The activations' block at point t: rows 1024 (t / 16) + p of X at the columns of reduction block t % 4. -/
theorem act1_apply (c : Dev nD) (t : Fin cfg1.N) (p k : Fin 1024) :
    act1 V c t (ix2 p k) = opX V c (ix2 (rowAt1 t p) (Cert.Spec.inBlock (stepAt1 t) k)) := by
  obtain ⟨e0, e1, -⟩ := idx_facts1 t
  show V c main_v3 (((cfg1.win 0).blk t).view.emb (ix2 p k)) = V c main_v3 (ix2 (rowAt1 t p) (Cert.Spec.inBlock (stepAt1 t) k))
  refine congrArg (V c main_v3) (funext fun a => Fin.ext ?_)
  match a with
  | ⟨0, _⟩ => show win1_0.index t (0 : Fin 2) * 1024 + 1 * p.val = 1024 * (t.val / 16) + p.val; rw [e0]; omega
  | ⟨1, _⟩ => show win1_0.index t (1 : Fin 2) * 1024 + 1 * k.val = 1024 * (t.val % 4) + k.val; rw [e1]; omega

/-- The weight matrix's block at point t: rows 1024 (t / 4 % 4) + q of W at the columns of reduction block t % 4. -/
theorem wgt1_apply (c : Dev nD) (t : Fin cfg1.N) (q k : Fin 1024) :
    wgt1 V c t (ix2 q k) = opW V c (ix2 (colAt1 t q) (Cert.Spec.inBlock (stepAt1 t) k)) := by
  obtain ⟨-, -, e2, e3, -⟩ := idx_facts1 t
  show V c main_v2 (((cfg1.win 1).blk t).view.emb (ix2 q k)) = V c main_v2 (ix2 (colAt1 t q) (Cert.Spec.inBlock (stepAt1 t) k))
  refine congrArg (V c main_v2) (funext fun a => Fin.ext ?_)
  match a with
  | ⟨0, _⟩ => show win1_1.index t (0 : Fin 2) * 1024 + 1 * q.val = 1024 * (t.val / 4 % 4) + q.val; rw [e2]; omega
  | ⟨1, _⟩ => show win1_1.index t (1 : Fin 2) * 1024 + 1 * k.val = 1024 * (t.val % 4) + k.val; rw [e3]; omega

/-- The bias row's piece at point t: entries 1024 (t / 4 % 4) + q of the row. -/
theorem bias1_apply (c : Dev nD) (t : Fin cfg1.N) (q : Fin 1024) :
    bias1 V c t (ix2 (0 : Fin 1) q) = opB V c (ix2 (0 : Fin 1) (colAt1 t q)) := by
  obtain ⟨-, -, -, -, e4, e5, -⟩ := idx_facts1 t
  show V c main_v4 (((cfg1.win 2).blk t).view.emb (ix2 (0 : Fin 1) q)) = V c main_v4 (ix2 (0 : Fin 1) (colAt1 t q))
  refine congrArg (V c main_v4) (funext fun a => Fin.ext ?_)
  match a with
  | ⟨0, _⟩ => show win1_2.index t (0 : Fin 2) * 1 + 1 * 0 = 0; rw [e4]
  | ⟨1, _⟩ => show win1_2.index t (1 : Fin 2) * 1024 + 1 * q.val = 1024 * (t.val / 4 % 4) + q.val; rw [e5]; omega

/-! ## The accumulator at an entry -/

/-- Reduction block b's contribution to entry (r, o): the products over the block's 1024 columns. -/
def blockSum1 (c : Dev nD) (r : Fin 8192) (o : Fin 4096) (b : Fin 4) : EReal :=
  ∑ k : Fin 1024, opX V c (ix2 r (Cert.Spec.inBlock b k)) * opW V c (ix2 o (Cert.Spec.inBlock b k))

/-- Zero plus the contributions of the reduction blocks 0 .. j, added in order. -/
def partSum1 (c : Dev nD) (r : Fin 8192) (o : Fin 4096) : ℕ → EReal
  | 0 => 0 + blockSum1 V c r o (stepOf1 0)
  | j + 1 => partSum1 c r o j + blockSum1 V c r o (stepOf1 (j + 1))

/-- At a clearing point the accumulator's entry is zero plus the point's block contribution. -/
theorem acc1_clear_apply (c : Dev nD) (t : Fin cfg1.N) (h0 : t.val % 4 = 0) (p q : Fin 1024) :
    acc1 V c t.val t.isLt (ix2 p q) = 0 + blockSum1 V c (rowAt1 t p) (colAt1 t q) (stepAt1 t) := by
  refine (congrFun (acc1_clear V c t h0) (ix2 p q)).trans ?_
  refine (PayIdeal.step1_apply _ _ _ p q).trans ?_
  rw [PayIdeal.clear1_apply]
  unfold blockSum1
  refine congrArg (0 + ·) (Finset.sum_congr rfl fun k _ => ?_)
  rw [act1_apply, wgt1_apply]

/-- At any other point it is the entry the point before left plus the point's block contribution. -/
theorem acc1_add_apply (c : Dev nD) (t : Fin cfg1.N) (h0 : ¬t.val % 4 = 0) (p q : Fin 1024) :
    acc1 V c t.val t.isLt (ix2 p q)
      = acc1 V c (t.val - 1) (Nat.lt_of_le_of_lt (Nat.sub_le _ _) t.isLt) (ix2 p q)
        + blockSum1 V c (rowAt1 t p) (colAt1 t q) (stepAt1 t) := by
  refine (congrFun (acc1_add V c t h0) (ix2 p q)).trans ?_
  refine (PayIdeal.step1_apply _ _ _ p q).trans ?_
  unfold blockSum1
  refine congrArg (acc1 V c (t.val - 1) _ (ix2 p q) + ·) (Finset.sum_congr rfl fun k _ => ?_)
  rw [act1_apply, wgt1_apply]

/-- By induction on the point: after the point at reduction step j the accumulator's entry (p, q) is zero plus the
    contributions of blocks 0 .. j to the array entry under it. -/
theorem acc1_apply (c : Dev nD) (p q : Fin 1024) : ∀ (n : ℕ) (hn : n < cfg1.N) (j : ℕ), n % 4 = j →
    acc1 V c n hn (ix2 p q) = partSum1 V c (rowAt1 ⟨n, hn⟩ p) (colAt1 ⟨n, hn⟩ q) j
  | 0, hn, j, hj => by
    subst hj
    exact acc1_clear_apply V c ⟨0, hn⟩ rfl p q
  | n + 1, hn, j, hj => by
    by_cases h0 : (n + 1) % 4 = 0
    · obtain rfl : j = 0 := by omega
      refine (acc1_clear_apply V c ⟨n + 1, hn⟩ h0 p q).trans ?_
      show 0 + blockSum1 V c _ _ (stepOf1 (n + 1)) = 0 + blockSum1 V c _ _ (stepOf1 0)
      rw [show stepOf1 (n + 1) = stepOf1 0 from Fin.ext (by show (n + 1) % 4 = 0 % 4; omega)]
    · cases j with
      | zero => exact absurd hj h0
      | succ j =>
        have ih := acc1_apply c p q n (Nat.lt_of_succ_lt hn) j (by omega)
        refine (acc1_add_apply V c ⟨n + 1, hn⟩ h0 p q).trans ?_
        show acc1 V c n _ (ix2 p q) + blockSum1 V c (rowAt1 ⟨n + 1, hn⟩ p) (colAt1 ⟨n + 1, hn⟩ q) (stepOf1 (n + 1))
          = partSum1 V c (rowAt1 ⟨n + 1, hn⟩ p) (colAt1 ⟨n + 1, hn⟩ q) j
            + blockSum1 V c (rowAt1 ⟨n + 1, hn⟩ p) (colAt1 ⟨n + 1, hn⟩ q) (stepOf1 (j + 1))
        have er : rowAt1 ⟨n + 1, hn⟩ p = rowAt1 ⟨n, Nat.lt_of_succ_lt hn⟩ p :=
          Fin.ext (by show 1024 * ((n + 1) / 16) + p.val = 1024 * (n / 16) + p.val; omega)
        have ec : colAt1 ⟨n + 1, hn⟩ q = colAt1 ⟨n, Nat.lt_of_succ_lt hn⟩ q :=
          Fin.ext (by show 1024 * ((n + 1) / 4 % 4) + q.val = 1024 * (n / 4 % 4) + q.val; omega)
        rw [ih, er, ec, show stepOf1 (n + 1) = stepOf1 (j + 1) from Fin.ext (by show (n + 1) % 4 = (j + 1) % 4; omega)]

/-! ## What a writing point writes back, and the cover -/

/-- The four block contributions, added in order onto zero, are the whole sum over the 4096 columns. -/
theorem partSum1_three (c : Dev nD) (r : Fin 8192) (o : Fin 4096) :
    partSum1 V c r o 3 = ∑ k : Fin 4096, opX V c (ix2 r k) * opW V c (ix2 o k) :=
  (Cert.Spec.sum_by_blocks fun k => opX V c (ix2 r k) * opW V c (ix2 o k)).symm

/-- The output block of a point at the last reduction step, at entry (p, q): the linear layer's result at the array
    entry under it. -/
theorem out1_apply (c : Dev nD) (t : Fin cfg1.N) (h3 : t.val % 4 = 3) (p q : Fin 1024) :
    k1_pay3 (acc1 V c t.val t.isLt) (bias1 V c t) (ix2 p q) = linearOf V c (ix2 (rowAt1 t p) (colAt1 t q)) := by
  refine (PayIdeal.emit1_apply _ _ p q).trans ?_
  rw [acc1_apply V c p q t.val t.isLt 3 h3, partSum1_three, bias1_apply]
  rfl

/-- What a writing point writes back is its block of the linear layer's result. -/
theorem flushed1_eq (c : Dev nD) (t : Fin cfg1.N) (hf : (cfg1.win 3).flush t = true) :
    (dat1 V c).flushed 3 t = ((cfg1.win 3).blk t).view.read (Elt Ideal) (linearOf V c) := by
  have h3 : t.val % 4 = 3 := (flush1_3 t).mp hf
  obtain ⟨-, -, -, -, -, -, e6, e7⟩ := idx_facts1 t
  show (cfg1.win 3).cut (cfg1.grid.coords t) ((dat1 V c).after 3 t) = _
  rw [after1_3]
  funext y
  have hy0 : (y 0).val < 1024 := (y 0).isLt
  have hy1 : (y 1).val < 1024 := (y 1).isLt
  -- the block entry by its two coordinates, and the array entry under it
  have ey : (cfg1.win 3).xinj (cfg1.grid.coords t) y = ix2 (⟨(y 0).val, hy0⟩ : Fin 1024) (⟨(y 1).val, hy1⟩ : Fin 1024) :=
    funext fun a => by match a with | ⟨0, _⟩ => rfl | ⟨1, _⟩ => rfl
  have ee : ((cfg1.win 3).blk t).view.emb y = ix2 (rowAt1 t ⟨(y 0).val, hy0⟩) (colAt1 t ⟨(y 1).val, hy1⟩) :=
    funext fun a => Fin.ext (by
      match a with
      | ⟨0, _⟩ => show win1_3.index t (0 : Fin 2) * 1024 + 1 * (y 0).val = 1024 * (t.val / 16) + (y 0).val; rw [e6]; omega
      | ⟨1, _⟩ => show win1_3.index t (1 : Fin 2) * 1024 + 1 * (y 1).val = 1024 * (t.val / 4 % 4) + (y 1).val; rw [e7]; omega)
  show k1_pay3 (acc1 V c t.val t.isLt) (bias1 V c t) ((cfg1.win 3).xinj (cfg1.grid.coords t) y)
    = linearOf V c (((cfg1.win 3).blk t).view.emb y)
  exact ((congrArg (k1_pay3 (acc1 V c t.val t.isLt) (bias1 V c t)) ey).trans (out1_apply V c t h3 _ _)).trans
    (congrArg (linearOf V c) ee).symm

/-- Every entry (r, o) of the output array is in the block of the writing point 16 (r / 1024) + 4 (o / 1024) + 3. -/
theorem cover1 (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, ht⟩ : ∃ t : Fin cfg1.N, t.val = 16 * ((i 0).val / 1024) + 4 * ((i 1).val / 1024) + 3 :=
    ⟨⟨16 * ((i 0).val / 1024) + 4 * ((i 1).val / 1024) + 3, Nat.lt_of_lt_of_eq (by omega) N_1.symm⟩, rfl⟩
  obtain ⟨-, -, -, -, -, -, e6, e7⟩ := idx_facts1 t
  refine ⟨t, (flush1_3 t).mpr (by omega), ?_⟩
  show i ∈ ((View.whole main_v5).slice (win1_3.rect t)).set
  rw [View.set_slice_whole, Rect.mem_set_unit]
  intro a
  match a with
  | ⟨0, _⟩ =>
    show win1_3.index t (0 : Fin 2) * 1024 ≤ (i 0).val ∧ (i 0).val < win1_3.index t (0 : Fin 2) * 1024 + 1024
    rw [e6]; omega
  | ⟨1, _⟩ =>
    show win1_3.index t (1 : Fin 2) * 1024 ≤ (i 1).val ∧ (i 1).val < win1_3.index t (1 : Fin 2) * 1024 + 1024
    rw [e7]; omega

/-- After the run the second call's output array holds the linear layer's result. -/
theorem call1_result (c : Dev nD) : (dat1 (F := Ideal) V c).arrAt 3 cfg1.N = linearOf V c := by
  exact (dat1 V c).arrAt_eq_of_cover 3 (linearOf V c) (flushed1_eq V c) cover1

end Cert.KernelIdeal.Hand

end
-- ==== Proof.KernelIdeal.Result.lean ====
/-
  What the run leaves in the result buffer, over the extended reals, as a function of the six arguments. Reading the
  fold backwards: the last host line gives the flattened result its three-axis shape back (entry (b, t, o) is entry
  (2048 b + t, o)); the second call left the linear layer of its operands; those were the activations flattened (row
  2048 b + t is (b, t)), what the first call left — the weight matrix of ITS operands, the left factor, the row S + ε and
  the right factor —, and the bias as a row. Composed, the result is `Cert.Spec.linear x (Cert.Spec.weight U S ε Vt) bias`.
-/
import proofs.«173463_j11252814316068_1_alg».proof.Proof.KernelIdeal.Run
import proofs.«173463_j11252814316068_1_alg».proof.Proof.KernelIdeal.Value0
import proofs.«173463_j11252814316068_1_alg».proof.Proof.KernelIdeal.Value1
import proofs.«173463_j11252814316068_1_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (m : (ℓ : Loc nD τ sig) → Buf (Elt Ideal) ℓ)

/-- The six arguments at launch, at their literal types. -/
abbrev argX (c : Dev nD) : Vec Ideal S4x2048x4096 .f32 := m ((c : Thread nD τ).loc main_arg0)
abbrev argU (c : Dev nD) : Vec Ideal S4096x4096 .f32 := m ((c : Thread nD τ).loc main_arg1)
abbrev argS (c : Dev nD) : Vec Ideal S4096 .f32 := m ((c : Thread nD τ).loc main_arg2)
abbrev argVt (c : Dev nD) : Vec Ideal S4096x4096 .f32 := m ((c : Thread nD τ).loc main_arg3)
abbrev argE (c : Dev nD) : Vec Ideal S4096 .f32 := m ((c : Thread nD τ).loc main_arg4)
abbrev argB (c : Dev nD) : Vec Ideal S4096 .f32 := m ((c : Thread nD τ).loc main_arg5)

/-! ## The first call's operands -/

theorem entry1_U (c : Dev nD) : opU (E1 m) c = argU m c :=
  StableHlo.after_of_writes_sub hostOps0 _ hostOps0_writes (by decide)
theorem entry1_Vt (c : Dev nD) : opVt (E1 m) c = argVt m c :=
  StableHlo.after_of_writes_sub hostOps0 _ hostOps0_writes (by decide)
/-- The scale row is S + ε laid out as one row. -/
theorem entry1_row (c : Dev nD) (r : Fin 4096) : opS (E1 m) c (ix2 (0 : Fin 1) r) = argS m c (ix1 r) + argE m c (ix1 r) := by
  have e : opS (E1 m) c = shapeCast S1x4096 (addf (F := Ideal) (φ := .f32) (argS m c) (argE m c)) Facts₀.shapeCasts_S4096_S1x4096 := by
    show StableHlo.after hostOps0 (B0 m c) (Proc.devRef .tc main_v1) = _
    after_results
    rfl
  rw [e]
  refine shapeCast_apply _ _ (ix2 (0 : Fin 1) r) (ix1 r) ?_
  rw [Shape.rowMajor_val_one, Shape.rowMajor_val_two]
  show r.val = 0 * 4096 + r.val
  omega

/-- The first call's result is the weight matrix of the arguments. -/
theorem weight_eq (c : Dev nD) : weightOf (E1 m) c = Cert.Spec.weight (argU m c) (argS m c) (argE m c) (argVt m c) := by
  funext j
  unfold weightOf Cert.Spec.weight
  refine Finset.sum_congr rfl fun r _ => ?_
  rw [entry1_row m c r, entry1_U m c, entry1_Vt m c]

/-! ## The second call's operands -/

/-- The weight operand is what the first call left. -/
theorem entry3_W (c : Dev nD) : opW (E3 m) c = (dat0 (F := Ideal) (E1 m) c).arrAt 3 cfg0.N :=
  (StableHlo.after_of_writes_sub hostOps1 _ hostOps1_writes (by decide)).trans (B2_arr m c 3)

/-- The activations flattened: row 2048 b + t is (b, t). -/
theorem entry3_X (c : Dev nD) (b : Fin 4) (t : Fin 2048) (k : Fin 4096) :
    opX (E3 m) c (ix2 (⟨2048 * b.val + t.val, by omega⟩ : Fin 8192) k) = argX m c (ix3 b t k) := by
  have e : opX (E3 m) c = shapeCast S8192x4096 (argX m c) Facts₀.shapeCasts_S4x2048x4096_S8192x4096 := by
    have h0 : B2 m c (Proc.devRef .tc main_arg0) = m ((c : Thread nD τ).loc main_arg0) :=
      (B2_of_ne m c main_arg0 (by decide)).trans (StableHlo.after_of_writes_sub hostOps0 _ hostOps0_writes (by decide))
    show StableHlo.after hostOps1 (B2 m c) (Proc.devRef .tc main_v3) = _
    after_results
    rw [h0]
    rfl
  rw [e]
  refine shapeCast_apply _ _ _ (ix3 b t k) ?_
  rw [Shape.rowMajor_val_three, Shape.rowMajor_val_two]
  show (b.val * 2048 + t.val) * 4096 + k.val = (2048 * b.val + t.val) * 4096 + k.val
  omega

/-- The bias as one row. -/
theorem entry3_B (c : Dev nD) (o : Fin 4096) : opB (E3 m) c (ix2 (0 : Fin 1) o) = argB m c (ix1 o) := by
  have e : opB (E3 m) c = shapeCast S1x4096 (argB m c) Facts₀.shapeCasts_S4096_S1x4096 := by
    have h0 : B2 m c (Proc.devRef .tc main_arg5) = m ((c : Thread nD τ).loc main_arg5) :=
      (B2_of_ne m c main_arg5 (by decide)).trans (StableHlo.after_of_writes_sub hostOps0 _ hostOps0_writes (by decide))
    show StableHlo.after hostOps1 (B2 m c) (Proc.devRef .tc main_v4) = _
    after_results
    rw [h0]
    rfl
  rw [e]
  refine shapeCast_apply _ _ (ix2 (0 : Fin 1) o) (ix1 o) ?_
  rw [Shape.rowMajor_val_one, Shape.rowMajor_val_two]
  show o.val = 0 * 4096 + o.val
  omega

/-! ## The result -/

/-- The result buffer at the end, entry (b, t, o): the second call's output at (2048 b + t, o). -/
theorem end_apply (c : Dev nD) (b : Fin 4) (t : Fin 2048) (o : Fin 4096) :
    (B5 m c (Proc.devRef .tc main_v6) : S4x2048x4096.Idx → EReal) (ix3 b t o)
      = linearOf (E3 m) c (ix2 (⟨2048 * b.val + t.val, by omega⟩ : Fin 8192) o) := by
  have e : (B5 m c (Proc.devRef .tc main_v6) : S4x2048x4096.Idx → EReal)
      = shapeCast S4x2048x4096 (linearOf (E3 m) c) Facts₀.shapeCasts_S8192x4096_S4x2048x4096 := by
    have h5 : B4 m c (Proc.devRef .tc main_v5) = linearOf (E3 m) c := (B4_arr m c 3).trans (call1_result (E3 m) c)
    show StableHlo.after hostOps2 (B4 m c) (Proc.devRef .tc main_v6) = _
    after_results
    rw [h5]
    rfl
  rw [e]
  refine shapeCast_apply _ _ (ix3 b t o) _ ?_
  rw [Shape.rowMajor_val_three, Shape.rowMajor_val_two]
  show (2048 * b.val + t.val) * 4096 + o.val = (b.val * 2048 + t.val) * 4096 + o.val
  omega

/-- THE RESULT: after the run the result buffer holds the specification of the six arguments. -/
theorem result_eq (c : Dev nD) :
    (B5 m c (Proc.devRef .tc main_v6) : S4x2048x4096.Idx → EReal)
      = Cert.Spec.linear (argX m c) (Cert.Spec.weight (argU m c) (argS m c) (argE m c) (argVt m c)) (argB m c) := by
  funext i
  obtain ⟨b, t, o, rfl⟩ : ∃ (b : Fin 4) (t : Fin 2048) (o : Fin 4096), i = ix3 b t o := ⟨i 0, i 1, i 2, eq_ix3 i⟩
  rw [end_apply m c b t o]
  unfold linearOf Cert.Spec.linear
  refine congrArg₂ (· + ·) (Finset.sum_congr rfl fun k _ => ?_) (entry3_B m c o)
  rw [entry3_X m c b t k, entry3_W m c, call0_result (E1 m) c, weight_eq m c]

end Cert.KernelIdeal.Hand

end
-- ==== Proof.RefValue.lean ====
/-
  The reference program read at an index: its result array is the linear layer applied to the weight matrix,
  `Cert.Spec.linear x (Cert.Spec.weight U S ε Vt) bias`, entry by entry.
-/
import proofs.«173463_j11252814316068_1_alg».proof.Proof.Gen.ReferenceIdeal.Read
import proofs.«173463_j11252814316068_1_alg».proof.Proof.Gen.ReferenceIdeal.Run
import proofs.«173463_j11252814316068_1_alg».proof.Proof.Spec

noncomputable section

namespace Cert.ReferenceIdeal.RefValue

open Idealize.ShloMosaic Idealize.ShloMosaic.ValueIdx
open Cert.ReferenceIdeal Cert.ReferenceIdeal.Gen
open scoped BigOperators

/-- The reference's result, as the generated stage `val_main_v8` of its six arguments (activations, left factor, scale,
    right factor, ε, bias), is the specification. -/
theorem result_eq (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x4096, .f32⟩ : BufTy).Contents (Elt Ideal))
    (x4 x5 : (⟨S4096, .f32⟩ : BufTy).Contents (Elt Ideal)) :
    Cert.ReferenceIdeal.Read.val_main_v8 (F := Ideal) x0 x1 x2 x3 x4 x5
      = Cert.Spec.linear x0 (Cert.Spec.weight x1 x2 x4 x3) x5 := by
  funext i
  -- The last addition, the outer contraction and the two broadcasts of the bias, read at the index i.
  rw [Read.val_main_v8_apply, Read.val_main_v5_apply, Read.val_main_v7_apply, Read.val_main_v6_apply]
  show (∑ k : Fin 4096, x0 (Read.lidx_main_v5 i k) * Read.val_main_v4 (F := Ideal) x1 x2 x3 x4 (Read.ridx_main_v5 i k))
        + x5 (Read.idx_main_v6 (Read.idx_main_v7 i))
      = (∑ k : Fin 4096, x0 (ix3 (i 0) (i 1) k) * Cert.Spec.weight x1 x2 x4 x3 (ix2 (i 2) k)) + x5 (ix1 (i 2))
  -- The bias is read at the last coordinate.
  have hb : Read.idx_main_v6 (Read.idx_main_v7 i) = ix1 (n := 4096) (i 2) :=
    funext fun a => Fin.ext (by match a with | ⟨0, _⟩ => rfl)
  -- The inner contraction at (o, k) is the weight matrix's entry W[o, k].
  have hw : ∀ k : Fin 4096, Read.val_main_v4 (F := Ideal) x1 x2 x3 x4 (Read.ridx_main_v5 i k)
      = Cert.Spec.weight x1 x2 x4 x3 (ix2 (i 2) k) := by
    intro k
    have er : Read.ridx_main_v5 i k = ix2 (n0 := 4096) (n1 := 4096) (i 2) k :=
      funext fun a => Fin.ext (by match a with | ⟨0, _⟩ => rfl | ⟨1, _⟩ => rfl)
    rw [er, Read.val_main_v4_apply]
    show _ = ∑ r : Fin 4096, (x1 (ix2 (i 2) r) * (x2 (ix1 r) + x4 (ix1 r))) * x3 (ix2 r k)
    refine Finset.sum_congr rfl fun r _ => ?_
    -- The scaled left factor at (o, r): U[o, r] · (S[r] + ε[r]), the scale row broadcast along the rows.
    rw [Read.val_main_v3_apply, Read.val_main_v2_apply, Read.val_main_v1_apply, Read.val_main_v0_apply]
    have e1 : Read.lidx_main_v4 (ix2 (n0 := 4096) (n1 := 4096) (i 2) k) r = ix2 (n0 := 4096) (n1 := 4096) (i 2) r :=
      funext fun a => Fin.ext (by match a with | ⟨0, _⟩ => rfl | ⟨1, _⟩ => rfl)
    have e2 : Read.idx_main_v1 (Read.idx_main_v2 (ix2 (n0 := 4096) (n1 := 4096) (i 2) r)) = ix1 (n := 4096) r :=
      funext fun a => Fin.ext (by match a with | ⟨0, _⟩ => rfl)
    have e3 : Read.ridx_main_v4 (ix2 (n0 := 4096) (n1 := 4096) (i 2) k) r = ix2 (n0 := 4096) (n1 := 4096) r k :=
      funext fun a => Fin.ext (by match a with | ⟨0, _⟩ => rfl | ⟨1, _⟩ => rfl)
    rw [e1, e2, e3]
    rfl
  -- The activations are read at (b, t, k).
  have el : ∀ k : Fin 4096, Read.lidx_main_v5 i k = ix3 (n0 := 4) (n1 := 2048) (n2 := 4096) (i 0) (i 1) k :=
    fun k => funext fun a => Fin.ext (by match a with | ⟨0, _⟩ => rfl | ⟨1, _⟩ => rfl | ⟨2, _⟩ => rfl)
  rw [hb]
  congr 1
  refine Finset.sum_congr rfl fun k _ => ?_
  rw [hw k, el k]

end Cert.ReferenceIdeal.RefValue

end
-- ==== Proof.lean ====
/-
  The claim. Both programs compute a linear layer whose weight matrix is itself a product: W = (U scaled columnwise by
  S + ε) · Vt, y = x · Wᵀ + bias. The kernel forms W by one tiled matrix product that accumulates four blocks of the inner
  axis from zero, then y by a second one of the same kind against the ROWS of W, adding the bias when a tile is
  finished; the reference writes the same two products and the sum directly. Over the extended reals a change of float
  format is the identity and a sum may be regrouped freely (addition is commutative and associative there, infinities
  included), so the two results are one function of the six arguments, `Cert.Spec.linear x (Cert.Spec.weight U S ε Vt)
  bias`; no finiteness of the inputs is used. The frames: the kernel program's run, at either float instance, ends with
  every unscoped buffer at a fold of the launch memory in which no item writes an argument; the reference is straight
  host code.
-/
import proofs.«173463_j11252814316068_1_alg».proof.Defs
import proofs.«173463_j11252814316068_1_alg».proof.Proof.Kernel.Run
import proofs.«173463_j11252814316068_1_alg».proof.Proof.KernelIdeal.Run
import proofs.«173463_j11252814316068_1_alg».proof.Proof.KernelIdeal.Result
import proofs.«173463_j11252814316068_1_alg».proof.Proof.RefValue
import proofs.«173463_j11252814316068_1_alg».proof.Proof.Gen.ReferenceIdeal
import proofs.«173463_j11252814316068_1_alg».proof.Proof.Gen.ReferenceIdeal.Run
import proofs.«173463_j11252814316068_1_alg».proof.Proof.Gen.ReferenceIdeal.Read
import proofs.«173463_j11252814316068_1_alg».proof.Proof.Gen.Pre_finite_inputs
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Hand.frame m ρ

/-- So does the idealized one. -/
theorem frame_kernel_ideal : Cert.frame_KernelIdeal := fun m ρ _ => Cert.KernelIdeal.Hand.frame m ρ

/-- The reference is host operations only: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals the two programs, run from memories that agree on the arguments, end with the same result:
    the linear layer applied to the weight matrix of the arguments. -/
theorem algebraic : Cert.algebraic_KernelIdeal_ReferenceIdeal := by
  intro m ρ m' ρ' _ hagree
  refine ⟨fun c => Cert.Spec.linear (Cert.KernelIdeal.Hand.argX m c)
      (Cert.Spec.weight (Cert.KernelIdeal.Hand.argU m c) (Cert.KernelIdeal.Hand.argS m c) (Cert.KernelIdeal.Hand.argE m c) (Cert.KernelIdeal.Hand.argVt m c)) (Cert.KernelIdeal.Hand.argB m c), ?_, ?_⟩
  · exact (θ_run Cert.KernelIdeal.defs _ _).mono (fun r h c =>
      ⟨(h c _ (Cert.KernelIdeal.Hand.mem_uc Cert.KernelIdeal.main_v6 (by decide))).trans (Cert.KernelIdeal.Hand.result_eq m c),
       (h c _ (Cert.KernelIdeal.Hand.mem_uc Cert.KernelIdeal.main_arg0 (by decide))).trans (Cert.KernelIdeal.Hand.atEnd_main_arg0 m c),
       (h c _ (Cert.KernelIdeal.Hand.mem_uc Cert.KernelIdeal.main_arg1 (by decide))).trans (Cert.KernelIdeal.Hand.atEnd_main_arg1 m c),
       (h c _ (Cert.KernelIdeal.Hand.mem_uc Cert.KernelIdeal.main_arg2 (by decide))).trans (Cert.KernelIdeal.Hand.atEnd_main_arg2 m c),
       (h c _ (Cert.KernelIdeal.Hand.mem_uc Cert.KernelIdeal.main_arg3 (by decide))).trans (Cert.KernelIdeal.Hand.atEnd_main_arg3 m c),
       (h c _ (Cert.KernelIdeal.Hand.mem_uc Cert.KernelIdeal.main_arg4 (by decide))).trans (Cert.KernelIdeal.Hand.atEnd_main_arg4 m c),
       (h c _ (Cert.KernelIdeal.Hand.mem_uc Cert.KernelIdeal.main_arg5 (by decide))).trans (Cert.KernelIdeal.Hand.atEnd_main_arg5 m c)⟩) (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v8_eq, Cert.ReferenceIdeal.RefValue.result_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
